-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S100000x512 : Shape := ⟨2, ![100000, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x512 .f32) (main_arg1 : IVec S1024 32) (main_arg2 : FVec F S100000x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg1 main_v9
  let main_c_3 : IVec S_ 32 := constantI S_ 32 100000#32
  let main_v11 : IVec S1024 32 := broadcastInDim S1024 ![] bcast_S_S1024 main_c_3
  let main_v12 : IVec S1024 1 := cmpi .slt main_arg1 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S1024x1 : Shape := ⟨2, ![1024, 1]⟩
abbrev S1024x128 : Shape := ⟨2, ![1024, 128]⟩
abbrev S1024x256 : Shape := ⟨2, ![1024, 256]⟩
abbrev S2000x512 : Shape := ⟨2, ![2000, 512]⟩
abbrev S400x512 : Shape := ⟨2, ![400, 512]⟩
abbrev S1024x400 : Shape := ⟨2, ![1024, 400]⟩

abbrev nBuf : Space → Nat
  | .hbm => 49
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S1024x512, .bf16⟩
  | .hbm, ⟨14, _⟩ => ⟨S1024x1, .i32⟩
  | .hbm, ⟨15, _⟩ => ⟨S1024x128, .i32⟩
  | .hbm, ⟨16, _⟩ => ⟨S1024x256, .f32⟩
  | .hbm, ⟨17, _⟩ => ⟨S1024x1, .f32⟩
  | .hbm, ⟨18, _⟩ => ⟨S1024, .f32⟩
  | .hbm, ⟨19, _⟩ => ⟨S1024x1, .f32⟩
  | .hbm, ⟨20, _⟩ => ⟨S1024, .f32⟩
  | .hbm, ⟨21, _⟩ => ⟨S1024, .f32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S1024x1, .i32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S1024x512, .bf16⟩
  | .local _ .vmem, ⟨1, _⟩ => ⟨S2000x512, .f32⟩
  | .local _ .vmem, ⟨2, _⟩ => ⟨S2000x512, .f32⟩
  | .local _ .vmem, ⟨3, _⟩ => ⟨S1024x128, .i32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v104 : BitVec 1 := Scalar.cmpi .eq arg1 c24_i32
  let v105 : BitVec 32 := Scalar.extui v104
  let c0_i32_35 : BitVec 32 := 0#32
  let v106 : BitVec 1 := Scalar.cmpi .ne v105 c0_i32_35
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bitsLt_bf16_f32 : FTy.bits .bf16 < FTy.bits .f32
  bcast_S1024x1_S1024x128_0_1 : S1024x1.BroadcastsInDim S1024x128 (![0, 1] : Fin 2 → Fin S1024x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S1024x128_o0_0_S1024x1 : S1024x128.Slices ![0, 0] S1024x1
  inb_S2000x512_S400x512_0_0 : ∀ a, (![0, 0] : Fin 2 → Nat) a + S400x512.size a ≤ S2000x512.size a
  h_S400x512 : 0 < S400x512.numel
  iota_S1024x400_d1_w32 : S1024x400.Iotas .tc 32 [1]
  broadcasts_S1024x1_S1024x400 : S1024x1.Broadcasts S1024x400
  reduces_S1024x400_S1024 : S1024x400.Reduces [1] S1024
  shapeCasts_S1024_S1024x1 : S1024.ShapeCasts S1024x1
  inb_S2000x512_S400x512_400_0 : ∀ a, (![400, 0] : Fin 2 → Nat) a + S400x512.size a ≤ S2000x512.size a
  inb_S2000x512_S400x512_800_0 : ∀ a, (![800, 0] : Fin 2 → Nat) a + S400x512.size a ≤ S2000x512.size a
  inb_S2000x512_S400x512_1200_0 : ∀ a, (![1200, 0] : Fin 2 → Nat) a + S400x512.size a ≤ S2000x512.size a
  inb_S2000x512_S400x512_1600_0 : ∀ a, (![1600, 0] : Fin 2 → Nat) a + S400x512.size a ≤ S2000x512.size a
  shapeCasts_S1024x1_S1024x1 : S1024x1.ShapeCasts S1024x1
  broadcasts_S1024x1_S1024x128 : S1024x1.Broadcasts S1024x128
  slices_S1024x256_S1024x1_0_0 : S1024x256.Slices ![0, 0] S1024x1
  shapeCasts_S1024x1_S1024 : S1024x1.ShapeCasts S1024
  slices_S1024x256_S1024x1_0_128 : S1024x256.Slices ![0, 128] S1024x1
  bcast_S_S1024 : S_.BroadcastsInDim S1024 (![] : Fin 0 → Fin S1024.rank)
  reducesTo_S1024_S_d0 : S1024.ReducesTo [0] S_
  dot_S1024x512_S400x512_S1024x400_1_1_0_0_n_n_wf : DotDims.WF S1024x512 S400x512 S1024x400 [1] [1] [0] [0] [] []
  gather_S100000x512_S1024x1_S1024x512_1_0_n_n_0_1_1512_wf : GatherDims.WF S100000x512 S1024x1 S1024x512 [1] [0] [] [0] [] 1 ![1, 512]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .i32 = 32 ∨ (Rect.block (s := S1024x128) S1024x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x256.size a
  hwx0_3 : ∀ i : grid0.Coords, EltTy.bits .f32 = 32 ∨ (Rect.block (s := S1024x256) S1024x128.size (cc0_transform_3 i) (hinb0_3 i)).WholeWords (EltTy.packing .f32)

variable [Facts₀]

def dot_S1024x512_S400x512_S1024x400_1_1_0_0_n_n : DotDims S1024x512 S400x512 S1024x400 where
  lhsContracting := [1]
  rhsContracting := [1]
  lhsNonContracting := [0]
  rhsNonContracting := [0]
  lhsBatch := []
  rhsBatch := []
  wf := dot_S1024x512_S400x512_S1024x400_1_1_0_0_n_n_wf
def gather_S100000x512_S1024x1_S1024x512_1_0_n_n_0_1_1512 : GatherDims S100000x512 S1024x1 S1024x512 where
  offsetDims := [1]
  collapsedSliceDims := [0]
  operandBatchingDims := []
  startIndicesBatchingDims := []
  startIndexMap := [0]
  indexVectorDim := 1
  sliceSizes := ![1, 512]
  wf := gather_S100000x512_S1024x1_S1024x512_1_0_n_n_0_1_1512_wf

abbrev win0_0 : Pipeline.Window sig grid0 :=
  Pipeline.Window.ofSpec (Memref.whole main_v8) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S1024x1 : Shape := ⟨2, ![1024, 1]⟩
abbrev S1024x100000 : Shape := ⟨2, ![1024, 100000]⟩
abbrev S1024x1x1 : Shape := ⟨3, ![1024, 1, 1]⟩
abbrev S1 : Shape := ⟨1, ![1]⟩
abbrev S1x1x1 : Shape := ⟨3, ![1, 1, 1]⟩
abbrev S100000 : Shape := ⟨1, ![100000]⟩
abbrev S1x100000 : Shape := ⟨2, ![1, 100000]⟩

abbrev nBuf : Space → Nat
  | .hbm => 69
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S1024x100000, .f32⟩
  | .hbm, ⟨14, _⟩ => ⟨S1024x1, .i32⟩
  | .hbm, ⟨15, _⟩ => ⟨S_, .i32⟩
  | .hbm, ⟨16, _⟩ => ⟨S1024x1, .i32⟩
  | .hbm, ⟨17, _⟩ => ⟨S1024x1, .i1⟩
  | .hbm, ⟨18, _⟩ => ⟨S_, .i32⟩
  | .hbm, ⟨19, _⟩ => ⟨S1024x1, .i32⟩
  | .hbm, ⟨20, _⟩ => ⟨S1024x1, .i32⟩
  | .hbm, ⟨21, _⟩ => ⟨S1024x1, .i32⟩
  | .hbm, ⟨22, _⟩ => ⟨S1024x1x1, .i32⟩
  | .hbm, ⟨23, _⟩ => ⟨S1, .i32⟩
  | .hbm, ⟨24, _⟩ => ⟨S_, .i32⟩
  | .hbm, ⟨25, _⟩ => ⟨S1024x1x1, .i32⟩
  | .hbm, ⟨26, _⟩ => ⟨S1024x1x1, .i1⟩
  | .hbm, ⟨27, _⟩ => ⟨S1x1x1, .i32⟩
  | .hbm, ⟨28, _⟩ => ⟨S1024x1x1, .i32⟩
  | .hbm, ⟨29, _⟩ => ⟨S1024x1x1, .i1⟩
  | .hbm, ⟨30, _⟩ => ⟨S1024x1x1, .i1⟩
  | .hbm, ⟨31, _⟩ => ⟨S_, .i1⟩
  | .hbm, ⟨32, _⟩ => ⟨S1024x1, .i1⟩
  | .hbm, ⟨33, _⟩ => ⟨S1024x1, .f32⟩
  | .hbm, ⟨34, _⟩ => ⟨S_, .f32⟩
  | .hbm, ⟨35, _⟩ => ⟨S1024x1, .f32⟩
  | .hbm, ⟨36, _⟩ => ⟨S1024x1, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024x1, .i32⟩
  | .hbm, ⟨45, _⟩ => ⟨S100000, .i32⟩
  | .hbm, ⟨46, _⟩ => ⟨S1x100000, .i32⟩
  | .hbm, ⟨47, _⟩ => ⟨S1024x100000, .i32⟩
  | .hbm, ⟨48, _⟩ => ⟨S1024x100000, .i32⟩
  | .hbm, ⟨49, _⟩ => ⟨S1024x100000, .i1⟩
  | .hbm, ⟨50, _⟩ => ⟨S_, .f32⟩
  | .hbm, ⟨51, _⟩ => ⟨S1024x100000, .f32⟩
  | .hbm, ⟨52, _⟩ => ⟨S1024x100000, .f32⟩
  | .hbm, ⟨53, _⟩ => ⟨S1024x100000, .f32⟩
  | .hbm, ⟨54, _⟩ => ⟨S_, .f32⟩
  | .hbm, ⟨55, _⟩ => ⟨S_, .f32⟩
  | .hbm, ⟨56, _⟩ => ⟨S1024x100000, .f32⟩
  | .hbm, ⟨57, _⟩ => ⟨S1024x100000, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S1024, .f32⟩
  | .hbm, ⟨63, _⟩ => ⟨S1024, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_cst : Ref sig .tc := ⟨.hbm, 34, rfl⟩
abbrev main_call1_v14 : Ref sig .tc := ⟨.hbm, 35, rfl⟩
abbrev main_v7 : Ref sig .tc := ⟨.hbm, 36, rfl⟩
abbrev main_v8 : Ref sig .tc := ⟨.hbm, 37, rfl⟩
abbrev main_cst_0 : Ref sig .tc := ⟨.hbm, 38, rfl⟩
abbrev main_v9 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_call2_v0 : Ref sig .tc := ⟨.hbm, 55, rfl⟩
abbrev main_call2_v1 : Ref sig .tc := ⟨.hbm, 56, rfl⟩
abbrev main_v22 : Ref sig .tc := ⟨.hbm, 57, rfl⟩
abbrev main_cst_4 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_5 : Ref sig .tc := ⟨.hbm, 64, rfl⟩
abbrev main_v28 : Ref sig .tc := ⟨.hbm, 65, rfl⟩
abbrev main_cst_6 : Ref sig .tc := ⟨.hbm, 66, rfl⟩
abbrev main_v29 : Ref sig .tc := ⟨.hbm, 67, rfl⟩
abbrev main_v30 : Ref sig .tc := ⟨.hbm, 68, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  bcast_S_S1024 : S_.BroadcastsInDim S1024 (![] : Fin 0 → Fin S1024.rank)
  bcast_S100000_S1x100000_1 : S100000.BroadcastsInDim S1x100000 (![1] : Fin 1 → Fin S1x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  bcast_S_S1024x100000 : S_.BroadcastsInDim S1024x100000 (![] : Fin 0 → Fin S1024x100000.rank)
  reducesTo_S1024x100000_S1024_d1 : S1024x100000.ReducesTo [1] S1024
  reducesTo_S1024_S_d0 : S1024.ReducesTo [0] S_
  dot_S1024x512_S100000x512_S1024x100000_1_1_0_0_n_n_wf : DotDims.WF S1024x512 S100000x512 S1024x100000 [1] [1] [0] [0] [] []
  gather_S1024x100000_S1024x1x1_S1024x1_n_1_0_0_1_2_11_wf : GatherDims.WF S1024x100000 S1024x1x1 S1024x1 [] [1] [0] [1] [0] 2 ![1, 1]

variable [Facts₀]

def dot_S1024x512_S100000x512_S1024x100000_1_1_0_0_n_n : DotDims S1024x512 S100000x512 S1024x100000 where
  lhsContracting := [1]
  rhsContracting := [1]
  lhsNonContracting := [0]
  rhsNonContracting := [0]
  lhsBatch := []
  rhsBatch := []
  wf := dot_S1024x512_S100000x512_S1024x100000_1_1_0_0_n_n_wf
def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf

class Facts : Prop extends Facts₀ where

variable [Facts]
-- ==== Proof.Spec.lean ====
/-
  The margin-softmax loss both programs compute, as functions of the normalised rows `xn` [1024 × 512], the class
  weights `W` [100000 × 512] and the label words `lab` [1024]:

    logit i c      = Σ_d xn[i, d] · W[c, d]
    term i c       = 0 if c is row i's label, else exp (30 · logit i c)
    exclSum i      = Σ_c term i c                       (every class but the label)
    targetLogit i  = logit i (the class the label word names)
    loss           = −(1/1024) Σ_i ( n_i − log (exp n_i + exclSum i) ),   n_i = 30 · (targetLogit i − 0.4)

  The kernel reaches `exclSum` tile by tile: 50 tiles of 2000 classes, each tile five runs of 400, and the
  block-level definitions below (`blkTerm`, `blkSum`) state what one tile contributes from the blocks it is handed.
-/
import Idealize.ShloMosaic.PureOps.Ideal
import Idealize.ShloMosaic.PureOps.Ideal.Laws
import Idealize.ShloMosaic.Lib.ValueIdx

noncomputable section

open scoped BigOperators

namespace Cert.MarginLoss

open Idealize.ShloMosaic Idealize.ShloMosaic.ValueIdx

/-- The logit scale 30, as the word both programs carry. -/
abbrev scale : EReal := Ideal.ofBits .f32 0x41F00000#32

/-- The class a label word names when it indexes the 100000 rows: the word read signed, clamped into [0, 99999]. -/
def classRow (w : BitVec 32) : Fin 100000 := ⟨min w.toInt.toNat (100000 - 1), by omega⟩

/-- Row `i` of the normalised input against class `col`. -/
def logit (xn : (⟨2, ![1024, 512]⟩ : Shape).Idx → EReal) (W : (⟨2, ![100000, 512]⟩ : Shape).Idx → EReal)
    (i : Fin 1024) (col : Fin 100000) : EReal :=
  ∑ d : Fin 512, xn (ix2 i d) * W (ix2 col d)

/-- One class's share of the denominator: nothing for the label's own class, `exp (30 · logit)` for every other. -/
def term (xn : (⟨2, ![1024, 512]⟩ : Shape).Idx → EReal) (W : (⟨2, ![100000, 512]⟩ : Shape).Idx → EReal)
    (lab : (⟨1, ![1024]⟩ : Shape).Idx → BitVec 32) (i : Fin 1024) (col : Fin 100000) : EReal :=
  if BitVec.ofNat 32 col.val = lab (ix1 i) then 0 else Ideal.exp (scale * logit xn W i col)

/-- The denominator without the label's class. -/
def exclSum (xn : (⟨2, ![1024, 512]⟩ : Shape).Idx → EReal) (W : (⟨2, ![100000, 512]⟩ : Shape).Idx → EReal)
    (lab : (⟨1, ![1024]⟩ : Shape).Idx → BitVec 32) (i : Fin 1024) : EReal :=
  ∑ col : Fin 100000, term xn W lab i col

/-- The logit of the label's class. -/
def targetLogit (xn : (⟨2, ![1024, 512]⟩ : Shape).Idx → EReal) (W : (⟨2, ![100000, 512]⟩ : Shape).Idx → EReal)
    (lab : (⟨1, ![1024]⟩ : Shape).Idx → BitVec 32) (i : Fin 1024) : EReal :=
  logit xn W i (classRow (lab (ix1 i)))

/-- `exclSum` and `targetLogit` as vectors over the batch. -/
def exclVec (xn : (⟨2, ![1024, 512]⟩ : Shape).Idx → EReal) (W : (⟨2, ![100000, 512]⟩ : Shape).Idx → EReal)
    (lab : (⟨1, ![1024]⟩ : Shape).Idx → BitVec 32) : FVec Ideal ⟨1, ![1024]⟩ .f32 :=
  fun j => exclSum xn W lab ⟨(j 0).val, (j 0).isLt⟩
def targetVec (xn : (⟨2, ![1024, 512]⟩ : Shape).Idx → EReal) (W : (⟨2, ![100000, 512]⟩ : Shape).Idx → EReal)
    (lab : (⟨1, ![1024]⟩ : Shape).Idx → BitVec 32) : FVec Ideal ⟨1, ![1024]⟩ .f32 :=
  fun j => targetLogit xn W lab ⟨(j 0).val, (j 0).isLt⟩

/-- From the label's logit and the rest of the denominator to the loss: the operations both programs end with,
    n = 30 · (t − 0.4), then the mean of n − log (exp n + e), negated. -/
def lossTail (hr : (⟨1, ![1024]⟩ : Shape).ReducesTo [0] ⟨0, ![]⟩) (h0 : 0 < (⟨0, ![]⟩ : Shape).numel)
    (hb : (⟨0, ![]⟩ : Shape).BroadcastsInDim ⟨1, ![1024]⟩ (![] : Fin 0 → Fin (⟨1, ![1024]⟩ : Shape).rank))
    (tl ex : FVec Ideal ⟨1, ![1024]⟩ .f32) : FVec Ideal ⟨0, ![]⟩ .f32 :=
  Host.negf (Host.divf
    (Host.reduceAdd
      (subf
        (mulf (broadcastInDim ⟨1, ![1024]⟩ ![] hb (constant (F := Ideal) ⟨0, ![]⟩ .f32 0x41F00000#32))
          (subf tl (broadcastInDim ⟨1, ![1024]⟩ ![] hb (constant (F := Ideal) ⟨0, ![]⟩ .f32 0x3ECCCCCD#32))))
        (Host.log (addf
          (Host.exp (mulf (broadcastInDim ⟨1, ![1024]⟩ ![] hb (constant (F := Ideal) ⟨0, ![]⟩ .f32 0x41F00000#32))
            (subf tl (broadcastInDim ⟨1, ![1024]⟩ ![] hb (constant (F := Ideal) ⟨0, ![]⟩ .f32 0x3ECCCCCD#32)))))
          ex)))
      (constant (F := Ideal) ⟨0, ![]⟩ .f32 0x00000000#32) hr h0)
    (constant (F := Ideal) ⟨0, ![]⟩ .f32 0x44800000#32))

/-- The rows of `x` divided by their Euclidean norms (each norm no smaller than the guard 1e-12): the operations both
    programs start with. -/
def normRows (hr : (⟨2, ![1024, 512]⟩ : Shape).ReducesTo [1] ⟨1, ![1024]⟩) (h0 : 0 < (⟨0, ![]⟩ : Shape).numel)
    (hb1 : (⟨1, ![1024]⟩ : Shape).BroadcastsInDim ⟨2, ![1024, 1]⟩ (![0] : Fin 1 → Fin (⟨2, ![1024, 1]⟩ : Shape).rank))
    (hb0 : (⟨0, ![]⟩ : Shape).BroadcastsInDim ⟨2, ![1024, 1]⟩ (![] : Fin 0 → Fin (⟨2, ![1024, 1]⟩ : Shape).rank))
    (hb2 : (⟨2, ![1024, 1]⟩ : Shape).BroadcastsInDim ⟨2, ![1024, 512]⟩ (![0, 1] : Fin 2 → Fin (⟨2, ![1024, 512]⟩ : Shape).rank))
    (x : FVec Ideal ⟨2, ![1024, 512]⟩ .f32) : FVec Ideal ⟨2, ![1024, 512]⟩ .f32 :=
  Host.divf x (broadcastInDim ⟨2, ![1024, 512]⟩ ![0, 1] hb2
    (maximumf
      (Host.sqrt (broadcastInDim ⟨2, ![1024, 1]⟩ ![0] hb1
        (Host.reduceAdd (mulf x x) (constant (F := Ideal) ⟨0, ![]⟩ .f32 0x00000000#32) hr h0)))
      (broadcastInDim ⟨2, ![1024, 1]⟩ ![] hb0 (constant (F := Ideal) ⟨0, ![]⟩ .f32 0x2B8CBCCC#32))))

/-! ## One tile, from its blocks -/

/-- Row `i` of the input block against row `r` of a 2000-row block of the weights. -/
def blkLogit (xb : (⟨2, ![1024, 512]⟩ : Shape).Idx → EReal) (wb : (⟨2, ![2000, 512]⟩ : Shape).Idx → EReal)
    (i : Fin 1024) (r : Fin 2000) : EReal :=
  ∑ d : Fin 512, xb (ix2 i d) * wb (ix2 r d)

/-- The block's row `r` is class `base + r` (as 32-bit words); its share is dropped when that is the label word
    held in lane 0 of the label block's row `i`. -/
def blkTerm (xb : (⟨2, ![1024, 512]⟩ : Shape).Idx → EReal) (wb : (⟨2, ![2000, 512]⟩ : Shape).Idx → EReal)
    (lb : (⟨2, ![1024, 128]⟩ : Shape).Idx → BitVec 32) (base : BitVec 32) (i : Fin 1024) (r : Fin 2000) : EReal :=
  if base + BitVec.ofNat 32 r.val = lb (ix2 i (0 : Fin 128)) then 0 else Ideal.exp (scale * blkLogit xb wb i r)

/-- Row `k` of the `j`-th run of 400 inside a tile. -/
def subRow (j : Fin 5) (k : Fin 400) : Fin 2000 := ⟨j.val * 400 + k.val, by omega⟩

/-- What one tile adds for row `i`: the five runs of 400 summed one after the other from zero. -/
def blkSum (xb : (⟨2, ![1024, 512]⟩ : Shape).Idx → EReal) (wb : (⟨2, ![2000, 512]⟩ : Shape).Idx → EReal)
    (lb : (⟨2, ![1024, 128]⟩ : Shape).Idx → BitVec 32) (base : BitVec 32) (i : Fin 1024) : EReal :=
  ((((0 + ∑ k : Fin 400, blkTerm xb wb lb base i (subRow 0 k))
      + ∑ k : Fin 400, blkTerm xb wb lb base i (subRow 1 k))
      + ∑ k : Fin 400, blkTerm xb wb lb base i (subRow 2 k))
      + ∑ k : Fin 400, blkTerm xb wb lb base i (subRow 3 k))
      + ∑ k : Fin 400, blkTerm xb wb lb base i (subRow 4 k)

/-- The word a tile's classes start at, as the kernel computes it from the grid coordinates `(p, c)`:
    `(p · 25 + c) · 2000` in 32-bit arithmetic. -/
def tileBase (p c : ℕ) : BitVec 32 := (BitVec.ofNat 32 p * 25#32 + BitVec.ofNat 32 c) * 2000#32

end Cert.MarginLoss

end
-- ==== Proof.PreDecode.lean ====
/-
  What the precondition says of the labels: every label word, read signed, lies in [0, 100000).
-/
import proofs.«408675_j41463614276215_3_alg».proof.Pre_finite_inputs
import proofs.«408675_j41463614276215_3_alg».proof.Proof.Gen.Pre_finite_inputs
import Idealize.ShloMosaic.Lib.ValueIdx
import Idealize.ShloMosaic.Lib.ReduceAll
import Idealize.ShloMosaic.Lib.StableHlo.Predicate

noncomputable section

namespace Cert.MarginLoss.Pre

open Cert.Pre_finite_inputs Idealize.ShloMosaic Idealize.ShloMosaic.ValueIdx

/-- A 32-bit word that passes the two signed comparisons 0 ≤ w and w < 100000 has its signed value in [0, 100000). -/
theorem word_in_range (w : BitVec 32) (h0 : IntOp.cmpi .sge w (0#32) = 1#1) (h1 : IntOp.cmpi .slt w (100000#32) = 1#1) :
    0 ≤ w.toInt ∧ w.toInt < 100000 := by
  have e0 : (0#32 : BitVec 32).toInt = 0 := by decide
  have e1 : (100000#32 : BitVec 32).toInt = 100000 := by decide
  have a := IntOp.cmpi_sge.1 h0
  have b := IntOp.cmpi_slt.1 h1
  rw [e0] at a
  rw [e1] at b
  exact ⟨a, b⟩

/-- The precondition's last conjunct, decoded. -/
theorem labels_in_range {F : FTy → Type} [FloatOps F] (a0 : FVec F S1024x512 .f32) (a1 : IVec S1024 32)
    (a2 : FVec F S100000x512 .f32) (h : fn (F := F) a0 a1 a2 = fun _ => 1#1) (i : Fin 1024) :
    0 ≤ (a1 (ix1 i)).toInt ∧ (a1 (ix1 i)).toInt < 100000 := by
  -- the predicate at its one index: the conjunction of the finiteness part and the label part
  have e := congrFun h ix0
  dsimp only [fn] at e
  change IntOp.andi _ _ = 1#1 at e
  -- the label part is a reduction by "and" over the whole label axis into the rank-0 shape, which has one index:
  -- every element is 1
  have e14 := (IntOp.andi_eq_one.1 e).2
  haveI : Subsingleton S_.Idx := ⟨fun _ _ => funext fun d => d.elim0⟩
  have ei := Host.reduce_andi_all _ _ _ _ _ e14 (ix1 i)
  -- at label i the element is the conjunction of the two comparisons with the broadcast constants
  change IntOp.andi (IntOp.cmpi .sge (a1 (ix1 i)) (0#32)) (IntOp.cmpi .slt (a1 (ix1 i)) (100000#32)) = 1#1 at ei
  obtain ⟨h0, h1⟩ := IntOp.andi_eq_one.1 ei
  exact word_in_range _ h0 h1

end Cert.MarginLoss.Pre

end
-- ==== Proof.RefSide.lean ====
/-
  The reference program's result, read off its run one operation at a time: it is `lossTail` of the label's logit
  and of the denominator without the label's class, both over the rows `normRows x`.
-/
import proofs.«408675_j41463614276215_3_alg».proof.Proof.Spec
import proofs.«408675_j41463614276215_3_alg».proof.Proof.Gen.ReferenceIdeal.Read
import Idealize.ShloMosaic.Lib.StableHlo.Predicate

noncomputable section

open scoped BigOperators

namespace Cert.MarginLoss.Ref

open Cert.ReferenceIdeal Cert.ReferenceIdeal.Gen Cert.ReferenceIdeal.Read
open Idealize.ShloMosaic Idealize.ShloMosaic.ValueIdx

/-- The normalised rows as the reference computes them. -/
abbrev xnOf (x0 : FVec Ideal S1024x512 .f32) : FVec Ideal S1024x512 .f32 :=
  normRows reducesTo_S1024x512_S1024_d1 h_S_ bcast_S1024_S1024x1_0 bcast_S_S1024x1 bcast_S1024x1_S1024x512_0_1 x0

/-! ## The two ends of the program -/

/-- From the label's logit and the denominator on, the program's operations are those of `lossTail`. -/
theorem tail_eq (x0 : FVec Ideal S1024x512 .f32) (x1 : IVec S1024 32) (x2 : FVec Ideal S100000x512 .f32) :
    val_main_v30 (F := Ideal) x0 x1 x2
      = lossTail reducesTo_S1024_S_d0 h_S_ bcast_S_S1024 (val_main_v8 (F := Ideal) x0 x1 x2)
          (val_main_v23 (F := Ideal) x0 x1 x2) := rfl

/-- The program's first operations are those of `normRows`. -/
theorem rows_eq (x0 : FVec Ideal S1024x512 .f32) : val_main_v4 (F := Ideal) x0 = xnOf x0 := rfl

/-! ## Words -/

/-- A select on an equality test of two words is the `if` on the equality, read the other way round. -/
theorem select_cmpi_eq {α : Type} {w : Nat} (a b : BitVec w) (x y : α) :
    Scalar.select (IntOp.cmpi .eq a b) x y = if b = a then x else y := by
  have hc : IntOp.cmpi .eq a b = 1 ↔ a = b := StableHlo.Predicate.cmpi_eq_iff
  unfold Scalar.select
  by_cases h : a = b
  · rw [if_pos (hc.mpr h), if_pos h.symm]
  · rw [if_neg (fun h' => h (hc.mp h')), if_neg (fun h' => h h'.symm)]

/-- A word that reads non-negative is not below zero … -/
theorem cmpi_slt_zero (a : BitVec 32) (h : 0 ≤ a.toInt) : IntOp.cmpi .slt a 0#32 = 0#1 := by
  have h0 : (0#32 : BitVec 32).toInt = 0 := by decide
  simp only [IntOp.cmpi, BitVec.slt, h0]
  rw [decide_eq_false (by omega)]; rfl

/-- … and is at least zero. -/
theorem cmpi_sge_zero (a : BitVec 32) (h : 0 ≤ a.toInt) : IntOp.cmpi .sge a 0#32 = 1#1 := by
  have h0 : (0#32 : BitVec 32).toInt = 0 := by decide
  simp only [IntOp.cmpi, BitVec.sle, h0]
  rw [decide_eq_true (by omega)]; rfl

/-- A word that reads below 100000 is at most 99999. -/
theorem cmpi_sle_last (a : BitVec 32) (h : a.toInt < 100000) : IntOp.cmpi .sle a 99999#32 = 1#1 := by
  have h0 : (99999#32 : BitVec 32).toInt = 99999 := by decide
  simp only [IntOp.cmpi, BitVec.sle, h0]
  rw [decide_eq_true (by omega)]; rfl

/-! ## The denominator without the label's class -/

/-- The program's logit of row `i` against class `col` is `logit` over the normalised rows. -/
theorem logit_eq (x0 : FVec Ideal S1024x512 .f32) (x2 : FVec Ideal S100000x512 .f32) (i : Fin 1024) (col : Fin 100000) :
    val_main_v5 (F := Ideal) x0 x2 (ix2 i col) = logit (xnOf x0) x2 i col := by
  rw [val_main_v5_apply, rows_eq]
  unfold logit
  refine Finset.sum_congr rfl fun d _ => ?_
  have el : lidx_main_v5 (ix2 i col) d = ix2 i d := eq_ix2 _
  have er : ridx_main_v5 (ix2 i col) d = ix2 col d := eq_ix2 _
  rw [el, er]

/-- The summand of the program's row sum at class `col`: nothing for the label's class, the exponential of the scaled
    logit for every other. -/
theorem summand_eq (x0 : FVec Ideal S1024x512 .f32) (x1 : IVec S1024 32) (x2 : FVec Ideal S100000x512 .f32)
    (i : Fin 1024) (col : Fin 100000) :
    val_main_v22 (F := Ideal) x0 x1 x2 (ix2 i col) = term (xnOf x0) x2 x1 i col := by
  rw [val_main_v22_apply, val_main_v18_apply, val_main_v16_apply, val_main_v13_apply, val_main_v17_apply,
    val_main_v15_apply, val_main_v14_apply, val_main_call2_v1_apply, val_main_call2_v0_apply, val_main_cst_3_apply,
    val_main_v21_apply, val_main_v20_apply, val_main_v19_apply, val_main_cst_2_apply, logit_eq, select_cmpi_eq]
  have e1 : idx_main_v13 (idx_main_v16 (ix2 i col)) = ix1 i := eq_ix1 _
  rw [e1]
  simp only [Ideal.ofBits_def, Ideal.ofBits_zero_f32, Ideal.hostUnary_exp_def, Ideal.mulf_def]
  rfl

/-- The program's row sums are `exclVec`. -/
theorem excl_eq (x0 : FVec Ideal S1024x512 .f32) (x1 : IVec S1024 32) (x2 : FVec Ideal S100000x512 .f32) :
    val_main_v23 (F := Ideal) x0 x1 x2 = exclVec (xnOf x0) x2 x1 := by
  funext j
  rw [val_main_v23_apply, val_main_cst_4_apply, Ideal.ofBits_def, Ideal.ofBits_zero_f32, zero_add]
  show _ = ∑ col : Fin 100000, term (xnOf x0) x2 x1 ⟨(j 0).val, (j 0).isLt⟩ col
  refine Finset.sum_congr rfl fun k _ => ?_
  have e : idx_main_v23 j k = ix2 (⟨(j 0).val, (j 0).isLt⟩ : Fin 1024) k := eq_ix2 _
  rw [e]
  exact summand_eq x0 x1 x2 _ k

/-! ## The label's logit -/

/-- The gather's dimension numbers: one class per row, the row the batch axis. -/
abbrev gd : GatherDims S1024x100000 S1024x1x1 S1024x1 := gather_S1024x100000_S1024x1x1_S1024x1_n_1_0_0_1_2_11

/-- The index the gather is handed for a row: the row's label itself, a non-negative label not being wrapped. -/
theorem labelIdx_eq (x1 : IVec S1024 32) (hlab : ∀ i : Fin 1024, 0 ≤ (x1 (ix1 i)).toInt ∧ (x1 (ix1 i)).toInt < 100000)
    (i3 : S1024x1x1.Idx) (i : Fin 1024) (hi : (i3 0).val = i.val) :
    val_main_call1_v5 (F := Ideal) x1 i3 = x1 (ix1 i) := by
  rw [val_main_call1_v5_apply, val_main_call1_v4_apply, val_main_call1_v1_apply, val_main_v6_apply,
    val_main_call1_v0_apply, val_main_call1_c_apply]
  have e : idx_main_v6 (idx_main_call1_v5 i3) = ix1 i := by
    funext a
    match a with
    | ⟨0, _⟩ =>
      refine Fin.ext ?_
      have h1 : (i3 1).val < 1 := (i3 1).isLt
      have h2 : (i3 2).val < 1 := (i3 2).isLt
      show (((i3 0).val * 1 + (i3 1).val) * 1 + (i3 2).val) / 1 = i.val
      omega
  rw [e, cmpi_slt_zero _ (hlab i).1, select_zero]

/-- So that index passes both bounds tests. -/
theorem inb_eq (x1 : IVec S1024 32) (hlab : ∀ i : Fin 1024, 0 ≤ (x1 (ix1 i)).toInt ∧ (x1 (ix1 i)).toInt < 100000)
    (i3 : S1024x1x1.Idx) : val_main_call1_v11 (F := Ideal) x1 i3 = 1#1 := by
  rw [val_main_call1_v11_apply, val_main_call1_v7_apply, val_main_call1_v10_apply, val_main_call1_v6_apply,
    val_main_call1_c_2_apply, val_main_call1_v9_apply, val_main_call1_v8_apply, val_main_call1_c_1_apply,
    labelIdx_eq x1 hlab i3 (⟨(i3 0).val, (i3 0).isLt⟩ : Fin 1024) rfl, cmpi_sge_zero _ (hlab _).1,
    cmpi_sle_last _ (hlab _).2]
  rfl

/-- A left fold by `and` from 1 over 1s is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    have e : IntOp.andi (1#1) (1#1) = 1#1 := by decide
    rw [List.foldl_cons, h a List.mem_cons_self, e]
    exact ih (fun n hn => h n (List.mem_cons_of_mem _ hn))

/-- The mask the gather's result is selected by is set in every row. -/
theorem mask_eq (x1 : IVec S1024 32) (hlab : ∀ i : Fin 1024, 0 ≤ (x1 (ix1 i)).toInt ∧ (x1 (ix1 i)).toInt < 100000)
    (j2 : S1024x1.Idx) : val_main_call1_v12 (F := Ideal) x1 j2 = 1#1 := by
  unfold val_main_call1_v12
  rw [Host.reduce_eq_foldl]
  exact foldl_andi_one _ _ (fun i3 _ => inb_eq x1 hlab i3)

/-- The gather read at a row: the logits' entry at the row and the class its label names. -/
theorem gather_eq (x0 : FVec Ideal S1024x512 .f32) (x1 : IVec S1024 32) (x2 : FVec Ideal S100000x512 .f32)
    (hlab : ∀ i : Fin 1024, 0 ≤ (x1 (ix1 i)).toInt ∧ (x1 (ix1 i)).toInt < 100000)
    (j2 : S1024x1.Idx) (i : Fin 1024) (hi : (j2 0).val = i.val) :
    val_main_call1_v13 (F := Ideal) x0 x1 x2 j2
      = val_main_v5 (F := Ideal) x0 x2 (ix2 i (classRow (x1 (ix1 i)))) := by
  unfold val_main_call1_v13 Host.gather
  refine congrArg _ (funext fun a => Fin.ext ?_)
  match a with
  | ⟨0, _⟩ =>
    show gd.start j2 (val_main_call1_v5 (F := Ideal) x1) 0 + gd.batchCoord j2 0 + gd.offCoord j2 0 = i.val
    rw [GatherDims.start_batching _ _ _ _ (show (0 : Fin 2) ∈ gd.operandBatchingDims by decide),
      GatherDims.offCoord_eq_zero _ _ _ (fun h => ((GatherDims.mem_sKept _ _).mp h).2
        (show (0 : Fin 2) ∈ gd.operandBatchingDims by decide))]
    unfold GatherDims.batchCoord
    rw [dif_pos (show (0 : Fin 2) ∈ gd.operandBatchingDims by decide)]
    simp only [Nat.zero_add, Nat.add_zero]
    exact hi
  | ⟨1, _⟩ =>
    show gd.start j2 (val_main_call1_v5 (F := Ideal) x1) 1 + gd.batchCoord j2 1 + gd.offCoord j2 1
      = min (x1 (ix1 i)).toInt.toNat (100000 - 1)
    rw [GatherDims.batchCoord_eq_zero _ _ _ (show (1 : Fin 2) ∉ gd.operandBatchingDims by decide),
      GatherDims.offCoord_eq_zero _ _ _ (fun h => ((GatherDims.mem_sKept _ _).mp h).1
        (show (1 : Fin 2) ∈ gd.collapsedSliceDims by decide))]
    simp only [Nat.add_zero]
    unfold GatherDims.start
    rw [dif_pos (show (1 : Fin 2) ∈ gd.startIndexMap by decide)]
    rw [labelIdx_eq x1 hlab _ i hi]
    rfl

/-- The program's label logits are `targetVec`. -/
theorem target_eq (x0 : FVec Ideal S1024x512 .f32) (x1 : IVec S1024 32) (x2 : FVec Ideal S100000x512 .f32)
    (hlab : ∀ i : Fin 1024, 0 ≤ (x1 (ix1 i)).toInt ∧ (x1 (ix1 i)).toInt < 100000) :
    val_main_v8 (F := Ideal) x0 x1 x2 = targetVec (xnOf x0) x2 x1 := by
  funext j
  rw [val_main_v8_apply, val_main_v7_apply, mask_eq x1 hlab, select_one,
    gather_eq x0 x1 x2 hlab _ (⟨(j 0).val, (j 0).isLt⟩ : Fin 1024) (Nat.div_one _), logit_eq]
  rfl

/-- With every label in [0, 100000) the reference's result is the loss of `Spec`. -/
theorem result_eq (x0 : FVec Ideal S1024x512 .f32) (x1 : IVec S1024 32) (x2 : FVec Ideal S100000x512 .f32)
    (hlab : ∀ i : Fin 1024, 0 ≤ (x1 (ix1 i)).toInt ∧ (x1 (ix1 i)).toInt < 100000) :
    val_main_v30 (F := Ideal) x0 x1 x2
      = lossTail reducesTo_S1024_S_d0 h_S_ bcast_S_S1024 (targetVec (xnOf x0) x2 x1) (exclVec (xnOf x0) x2 x1) := by
  rw [tail_eq, target_eq x0 x1 x2 hlab, excl_eq]

end Cert.MarginLoss.Ref

end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.KHost.lean ====
/-
  The kernel program's host side at the ideal values: what the region is handed (the normalised rows, the labels
  laid across 128 lanes) and what the operations after the region make of the region's output array.
-/
import proofs.«408675_j41463614276215_3_alg».proof.Proof.Spec
import proofs.«408675_j41463614276215_3_alg».proof.Proof.LibRows
import proofs.«408675_j41463614276215_3_alg».proof.Proof.Gen.KernelIdeal.Frame
import Idealize.ShloMosaic.Lib.StableHlo.Run
import Idealize.ShloMosaic.Lib.Pipeline.Value
import Idealize.ShloMosaic.Lib.ValueLayout

noncomputable section

open scoped BigOperators

namespace Cert.MarginLoss.KHost

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The normalised rows as this program computes them from its first argument. -/
abbrev xnOf (c : Dev nD) : FVec Ideal S1024x512 .f32 :=
  normRows reducesTo_S1024x512_S1024_d1 h_S_ bcast_S1024_S1024x1_0 bcast_S_S1024x1 bcast_S1024x1_S1024x512_0_1
    (m ((c.tc : Thread nD τ).loc main_arg0))

/-- The array window 0 stages (the normalised rows, narrowed to bf16: the identity at the ideal values). -/
theorem V_xn (c : Dev nD) (j : S1024x512.Idx) :
    (V m c main_v8 : S1024x512.Idx → EReal) j = xnOf m c j := by
  have e : (V m c main_v8 : S1024x512.Idx → EReal)
      = truncf (F := Ideal) .bf16 (xnOf m c) bitsLt_bf16_f32 := by
    show StableHlo.after hostOps0 (fun b => m (c, b)) (Proc.devRef .tc main_v8) = _
    after_results
    rfl
  rw [e]
  rfl

/-- The array window 2 stages: row `r`'s label in every one of its 128 lanes. -/
theorem V_labels (c : Dev nD) (r : Fin 1024) (l : Fin 128) :
    (V m c main_v10 : S1024x128.Idx → BitVec 32) (ix2 r l) = m ((c.tc : Thread nD τ).loc main_arg1) (ix1 r) := by
  have e : (V m c main_v10 : S1024x128.Idx → BitVec 32)
      = broadcastInDim S1024x128 ![0, 1] bcast_S1024x1_S1024x128_0_1
          (broadcastInDim S1024x1 ![0] bcast_S1024_S1024x1_0
            (m ((c.tc : Thread nD τ).loc main_arg1) : S1024.Idx → BitVec 32)) := by
    show StableHlo.after hostOps0 (fun b => m (c, b)) (Proc.devRef .tc main_v10) = _
    after_results
  rw [e]
  refine (broadcastInDim_apply _ _ _ (ix2 r l) (ix2 r (0 : Fin 1)) ?_).trans ?_
  · intro a
    match a with
    | ⟨0, _⟩ => rfl
    | ⟨1, _⟩ => rfl
  · refine broadcastInDim_apply _ _ _ (ix2 r (0 : Fin 1)) (ix1 r) ?_
    intro a
    match a with
    | ⟨0, _⟩ => rfl

/-- Under the label range the host's index wrap (a negative label moved up by the class count) leaves the label. -/
theorem wrap_apply (lab : IVec S1024 32) (i : Fin 1024) (h0 : 0 ≤ (lab (ix1 i)).toInt) :
    (select (cmpi .slt lab (broadcastInDim S1024 ![] bcast_S_S1024 (constantI S_ 32 0#32)))
      (addi lab (broadcastInDim S1024 ![] bcast_S_S1024 (constantI S_ 32 100000#32))) lab) (ix1 i) = lab (ix1 i) := by
  have hlt : (lab (ix1 i)).slt 0#32 = false := by
    simp only [BitVec.slt, BitVec.toInt_zero, decide_eq_false_iff_not, Int.not_lt]
    exact h0
  show (if BitVec.ofBool ((lab (ix1 i)).slt 0#32) = 1 then _ else _) = _
  rw [hlt]
  rfl

/-- The host's logit of the label's class: the gathered weight rows against the normalised rows, summed over the
    512 columns from zero, is `targetVec`. -/
theorem tgt_eq (xn : FVec Ideal S1024x512 .f32) (W : FVec Ideal S100000x512 .f32) (lab : IVec S1024 32)
    (hlab : ∀ i : Fin 1024, 0 ≤ (lab (ix1 i)).toInt ∧ (lab (ix1 i)).toInt < 100000) :
    Host.reduceAdd (F := Ideal)
      (mulf xn (Host.gather gather_S100000x512_S1024x1_S1024x512_1_0_n_n_0_1_1512 W
        (broadcastInDim S1024x1 ![0] bcast_S1024_S1024x1_0
          (select (cmpi .slt lab (broadcastInDim S1024 ![] bcast_S_S1024 (constantI S_ 32 0#32)))
            (addi lab (broadcastInDim S1024 ![] bcast_S_S1024 (constantI S_ 32 100000#32))) lab))))
      (constant (F := Ideal) S_ .f32 0x00000000#32) reducesTo_S1024x512_S1024_d1 h_S_
    = targetVec xn W lab := by
  funext j
  have hred : S1024x512.Reduces [1] S1024 := by decide
  simp only [Host.reduceAdd, Ideal.hostReduceAdd_def]
  rw [Ideal.hostReduceAdd_single reducesTo_S1024x512_S1024_d1 hred]
  have hz : (constant (F := Ideal) S_ .f32 0x00000000#32) (Shape.Idx.first h_S_) = 0 := Ideal.ofBits_zero_f32
  rw [hz, zero_add]
  show _ = ∑ d : Fin 512, xn (ix2 (⟨(j 0).val, (j 0).isLt⟩ : Fin 1024) d)
    * W (ix2 (classRow (lab (ix1 (⟨(j 0).val, (j 0).isLt⟩ : Fin 1024)))) d)
  refine Finset.sum_congr rfl fun (k : Fin 512) _ => ?_
  have hk : hred.lift j k = ix2 (⟨(j 0).val, (j 0).isLt⟩ : Fin 1024) k :=
    funext fun a => Fin.ext (by match a with | ⟨0, _⟩ => rfl | ⟨1, _⟩ => rfl)
  show xn (hred.lift j k) * Host.gather _ W _ (hred.lift j k) = _
  rw [hk]
  refine congrArg (xn _ * ·) ?_
  refine (rowGather_apply (N := 100000) (E := 1024) (C := 512) (by decide)
    gather_S100000x512_S1024x1_S1024x512_1_0_n_n_0_1_1512_wf W _ (⟨(j 0).val, (j 0).isLt⟩ : Fin 1024) k).trans ?_
  have hidx : broadcastInDim S1024x1 ![0] bcast_S1024_S1024x1_0
      (select (cmpi .slt lab (broadcastInDim S1024 ![] bcast_S_S1024 (constantI S_ 32 0#32)))
        (addi lab (broadcastInDim S1024 ![] bcast_S_S1024 (constantI S_ 32 100000#32))) lab)
      (ix2 (⟨(j 0).val, (j 0).isLt⟩ : Fin 1024) (0 : Fin 1)) = lab (ix1 (⟨(j 0).val, (j 0).isLt⟩ : Fin 1024)) :=
    (broadcastInDim_apply _ _ _ (ix2 (⟨(j 0).val, (j 0).isLt⟩ : Fin 1024) (0 : Fin 1))
      (ix1 (⟨(j 0).val, (j 0).isLt⟩ : Fin 1024)) (fun a => match a with | ⟨0, _⟩ => rfl)).trans
      (wrap_apply lab _ (hlab _).1)
  refine congrArg (fun r : Fin 100000 => W (ix2 r k)) (Fin.ext ?_)
  show min (BitVec.toInt (broadcastInDim S1024x1 ![0] bcast_S1024_S1024x1_0
      (select (cmpi .slt lab (broadcastInDim S1024 ![] bcast_S_S1024 (constantI S_ 32 0#32)))
        (addi lab (broadcastInDim S1024 ![] bcast_S_S1024 (constantI S_ 32 100000#32))) lab)
      (ix2 (⟨(j 0).val, (j 0).isLt⟩ : Fin 1024) (0 : Fin 1)))).toNat (100000 - 1)
    = min (lab (ix1 (⟨(j 0).val, (j 0).isLt⟩ : Fin 1024))).toInt.toNat (100000 - 1)
  rw [hidx]

/-- Lanes 0 and 128 of the region's output array, each cut out as a column, flattened to a vector, and the two added. -/
theorem ex_eq (out : FVec Ideal S1024x256 .f32) :
    addf (F := Ideal)
      (fun i => shapeCast S1024 (extractStridedSlice S1024x1 ![0, 0] out slices_S1024x256_S1024x1_0_0)
        shapeCasts_S1024x1_S1024 i)
      (fun i => shapeCast S1024 (extractStridedSlice S1024x1 ![0, 128] out slices_S1024x256_S1024x1_0_128)
        shapeCasts_S1024x1_S1024 i)
    = fun j => out (ix2 (⟨(j 0).val, (j 0).isLt⟩ : Fin 1024) (0 : Fin 256))
        + out (ix2 (⟨(j 0).val, (j 0).isLt⟩ : Fin 1024) (128 : Fin 256)) := by
  funext j
  have hpos : (S1024x1.rowMajor (ix2 (⟨(j 0).val, (j 0).isLt⟩ : Fin 1024) (0 : Fin 1))).val = (S1024.rowMajor j).val := by
    rw [Shape.rowMajor_val_two, Shape.rowMajor_val_one]
    show (j 0).val * 1 + 0 = (j 0).val
    omega
  have e0 : shapeCast S1024 (extractStridedSlice S1024x1 ![0, 0] out slices_S1024x256_S1024x1_0_0)
      shapeCasts_S1024x1_S1024 j = out (ix2 (⟨(j 0).val, (j 0).isLt⟩ : Fin 1024) (0 : Fin 256)) :=
    (shapeCast_apply _ shapeCasts_S1024x1_S1024 j (ix2 (⟨(j 0).val, (j 0).isLt⟩ : Fin 1024) (0 : Fin 1)) hpos).trans
      (slice2_axis1_apply 0 out slices_S1024x256_S1024x1_0_0 _ (0 : Fin 1) (0 : Fin 256) rfl)
  have e1 : shapeCast S1024 (extractStridedSlice S1024x1 ![0, 128] out slices_S1024x256_S1024x1_0_128)
      shapeCasts_S1024x1_S1024 j = out (ix2 (⟨(j 0).val, (j 0).isLt⟩ : Fin 1024) (128 : Fin 256)) :=
    (shapeCast_apply _ shapeCasts_S1024x1_S1024 j (ix2 (⟨(j 0).val, (j 0).isLt⟩ : Fin 1024) (0 : Fin 1)) hpos).trans
      (slice2_axis1_apply 128 out slices_S1024x256_S1024x1_0_128 _ (0 : Fin 1) (128 : Fin 256) rfl)
  show shapeCast S1024 _ shapeCasts_S1024x1_S1024 j + shapeCast S1024 _ shapeCasts_S1024x1_S1024 j = _
  rw [e0, e1]

/-- The program's result after the region, with every label in [0, 100000): `lossTail` of the label's logit (the
    gathered weight row against the normalised row) and of lanes 0 and 128 of the region's output array added. -/
theorem result_eq (c : Dev nD)
    (hlab : ∀ i : Fin 1024, 0 ≤ (m ((c.tc : Thread nD τ).loc main_arg1) (ix1 i)).toInt
      ∧ (m ((c.tc : Thread nD τ).loc main_arg1) (ix1 i)).toInt < 100000)
    (out : (⟨2, ![1024, 256]⟩ : Shape).Idx → EReal)
    (hout : ((dats m 0 c).arrAt 3 cfg0.N : S1024x256.Idx → EReal) = out) :
    Pipeline.afterTail₀ cfgs (dats m) 0 (V0 m) [hostOps1] c main_v36
      = lossTail reducesTo_S1024_S_d0 h_S_ bcast_S_S1024
          (targetVec (xnOf m c) (m ((c.tc : Thread nD τ).loc main_arg2)) (m ((c.tc : Thread nD τ).loc main_arg1)))
          (fun j => out (ix2 (⟨(j 0).val, (j 0).isLt⟩ : Fin 1024) (0 : Fin 256))
                  + out (ix2 (⟨(j 0).val, (j 0).isLt⟩ : Fin 1024) (128 : Fin 256))) := by
  unfold Pipeline.afterTail₀
  show StableHlo.after hostOps1 _ (Proc.devRef .tc main_v36) = _
  after_results_simp
  -- what the operations after the region read: the region's output array, the weights and the labels as launched,
  -- and the f32 normalised rows computed before the region
  have h11 : Pipeline.withArrays (cfgs 0).spec c (V0 m c) (fun w => (dats m 0 c).arrAt w (cfgs 0).N) (Proc.devRef .tc main_v11) = out :=
    (Pipeline.withArrays_arr spec0 launch0.win.arr_inj c _ _ 3).trans hout
  have h2 : Pipeline.withArrays (cfgs 0).spec c (V0 m c) (fun w => (dats m 0 c).arrAt w (cfgs 0).N) (Proc.devRef .tc main_arg2) = m ((c.tc : Thread nD τ).loc main_arg2) :=
    (Pipeline.withArrays_arr spec0 launch0.win.arr_inj c _ _ 1).trans
      (((dats m 0 c).arrAt_in 1 rfl _).trans ((A_eq m c 1).trans (V_main_arg2 m c)))
  have h1 : Pipeline.withArrays (cfgs 0).spec c (V0 m c) (fun w => (dats m 0 c).arrAt w (cfgs 0).N) (Proc.devRef .tc main_arg1) = m ((c.tc : Thread nD τ).loc main_arg1) :=
    (Pipeline.withArrays_of_ne _ c (V0 m c) _ main_arg1
      (by exact (by decide : ∀ w, Pipeline.arrRef spec0 w ≠ main_arg1))).trans (V_main_arg1 m c)
  have h7 : Pipeline.withArrays (cfgs 0).spec c (V0 m c) (fun w => (dats m 0 c).arrAt w (cfgs 0).N) (Proc.devRef .tc main_v7) = xnOf m c :=
    (Pipeline.withArrays_of_ne _ c (V0 m c) _ main_v7
      (by exact (by decide : ∀ w, Pipeline.arrRef spec0 w ≠ main_v7))).trans (by
        show StableHlo.after hostOps0 (fun b => m (c, b)) (Proc.devRef .tc main_v7) = _
        after_results
        rfl)
  rw [h11, h2, h1, h7]
  -- the two inputs of the shared tail: the label's logit and the two lanes added
  exact congrArg₂ (lossTail reducesTo_S1024_S_d0 h_S_ bcast_S_S1024)
    (tgt_eq (xnOf m c) (m ((c.tc : Thread nD τ).loc main_arg2)) (m ((c.tc : Thread nD τ).loc main_arg1)) hlab)
    (ex_eq out)

end Cert.MarginLoss.KHost

end
-- ==== Proof.KBody.lean ====
/-
  What one grid point leaves in the carried scratch and (at a core's last tile) in the output block, entry by
  entry at the ideal values: what was there before plus the tile's sum `blkSum` of the blocks it was handed — from
  zero at a core's first tile, where the scratch is cleared first.
-/
import proofs.«408675_j41463614276215_3_alg».proof.Proof.Spec
import proofs.«408675_j41463614276215_3_alg».proof.Proof.Gen.KernelIdeal.Frame
import Idealize.ShloMosaic.Lib.Pipeline.Value
import Idealize.ShloMosaic.Lib.ValueLayout

set_option maxRecDepth 16384

noncomputable section

open scoped BigOperators

namespace Cert.MarginLoss.KBody

open Cert.KernelIdeal Cert.KernelIdeal.Gen
open Idealize.ShloMosaic Idealize.ShloMosaic.TcCoe Idealize.SL.Sem Idealize.ShloMosaic.ValueIdx

variable {F : FTy → Type} [FloatOps F]

/-- The zero offsets of a whole-block access, as a function. -/
theorem hz : (![0, 0] : Fin 2 → Nat) = fun _ => 0 := funext fun a => by fin_cases a <;> rfl

/-- One run of 400 classes against the whole input block: per row, the sum over the run's lanes of
    exp (30 · ⟨row, class⟩), a lane dropped when its class word (the run's first word plus the lane) is the row's
    label word; as a column vector. -/
def runVec (v4 : FVec F S1024x512 .bf16) (w : BitVec 32) (v10 : IVec S1024x1 32) (blk : Vec F S400x512 .f32) :
    FVec F S1024x1 .f32 :=
  shapeCast S1024x1
    (multiReduction .add [1] S1024
      (select
        (cmpi .eq (addi (broadcast S1024x400 w) (iota .tc S1024x400 32 [1] iota_S1024x400_d1_w32))
          (broadcastTo S1024x400 v10 broadcasts_S1024x1_S1024x400))
        (broadcast S1024x400 (Scalar.ofBits (F := F) .f32 0x00000000#32))
        (exp (mulf (broadcast S1024x400 (Scalar.ofBits (F := F) .f32 0x41F00000#32))
          (matmul dot_S1024x512_S400x512_S1024x400_1_1_0_0_n_n none v4 (truncf .bf16 blk bitsLt_bf16_f32)
            (constant S1024x400 .f32 0x00000000#32)))))
      0x00000000#32 reduces_S1024x400_S1024 (.inl rfl) rfl)
    shapeCasts_S1024_S1024x1

/-- A select on the bit of a word comparison is the `if` on the equation. -/
theorem select_cmpi_eq {α : Type} {w : Nat} (a b : BitVec w) (X Y : α) :
    Scalar.select (IntOp.cmpi .eq a b) X Y = if a = b then X else Y := by
  unfold Scalar.select
  exact if_congr IntOp.cmpi_eq rfl rfl

/-! The product's operand indices at output index (r, k) and contraction index d: (r, d) on the left, (k, d) on the right,
    coordinate by coordinate. -/

theorem lhs_dot_0 (j : S1024x400.Idx) (q : dot_S1024x512_S400x512_S1024x400_1_1_0_0_n_n.contr.Idx) :
    (dot_S1024x512_S400x512_S1024x400_1_1_0_0_n_n.lhsIdx j q 0).val = (j 0).val := by
  unfold DotDims.lhsIdx
  rw [dif_neg (show ¬(0 : Fin S1024x512.rank) ∈ dot_S1024x512_S400x512_S1024x400_1_1_0_0_n_n.lhsBatch by decide), dif_pos (show (0 : Fin S1024x512.rank) ∈ dot_S1024x512_S400x512_S1024x400_1_1_0_0_n_n.lhsNonContracting by decide)]
  rfl
theorem lhs_dot_1 (j : S1024x400.Idx) (q : dot_S1024x512_S400x512_S1024x400_1_1_0_0_n_n.contr.Idx) :
    (dot_S1024x512_S400x512_S1024x400_1_1_0_0_n_n.lhsIdx j q 1).val = (q ⟨0, by decide⟩).val :=
  dot_S1024x512_S400x512_S1024x400_1_1_0_0_n_n.lhsIdx_val_of_single rfl j q
theorem rhs_dot_0 (j : S1024x400.Idx) (q : dot_S1024x512_S400x512_S1024x400_1_1_0_0_n_n.contr.Idx) :
    (dot_S1024x512_S400x512_S1024x400_1_1_0_0_n_n.rhsIdx j q 0).val = (j 1).val := by
  unfold DotDims.rhsIdx
  rw [dif_neg (show ¬(0 : Fin S400x512.rank) ∈ dot_S1024x512_S400x512_S1024x400_1_1_0_0_n_n.rhsBatch by decide), dif_pos (show (0 : Fin S400x512.rank) ∈ dot_S1024x512_S400x512_S1024x400_1_1_0_0_n_n.rhsNonContracting by decide)]
  rfl
theorem rhs_dot_1 (j : S1024x400.Idx) (q : dot_S1024x512_S400x512_S1024x400_1_1_0_0_n_n.contr.Idx) :
    (dot_S1024x512_S400x512_S1024x400_1_1_0_0_n_n.rhsIdx j q 1).val = (q ⟨0, by decide⟩).val :=
  dot_S1024x512_S400x512_S1024x400_1_1_0_0_n_n.rhsIdx_val_of_single rfl j q

/-- The matrix product into a zero accumulator, at (r, k): row r of the left operand against row k of the right. -/
theorem matmul_apply_rk (a : FVec Ideal S1024x512 .bf16) (b : FVec Ideal S400x512 .bf16) (r : Fin 1024) (k : Fin 400) :
    matmul dot_S1024x512_S400x512_S1024x400_1_1_0_0_n_n none a b (constant S1024x400 .f32 0x00000000#32) (ix2 r k)
      = ∑ d : Fin 512, a (ix2 r d) * b (ix2 k d) := by
  simp only [matmul]
  rw [Ideal.matmul_constant_zero_apply, ← Equiv.sum_comp (ValueIdx.contrEquiv1 dot_S1024x512_S400x512_S1024x400_1_1_0_0_n_n 512 rfl rfl).symm]
  refine Finset.sum_congr rfl fun d _ => ?_
  have hd := ValueIdx.contrEquiv1_symm_val dot_S1024x512_S400x512_S1024x400_1_1_0_0_n_n 512 rfl rfl d
  have el : dot_S1024x512_S400x512_S1024x400_1_1_0_0_n_n.lhsIdx (ix2 r k) ((ValueIdx.contrEquiv1 dot_S1024x512_S400x512_S1024x400_1_1_0_0_n_n 512 rfl rfl).symm d) = ix2 r d := funext fun ax => Fin.ext (by
    match ax with
    | ⟨0, _⟩ => exact lhs_dot_0 _ _
    | ⟨1, _⟩ => exact (lhs_dot_1 _ _).trans hd)
  have er : dot_S1024x512_S400x512_S1024x400_1_1_0_0_n_n.rhsIdx (ix2 r k) ((ValueIdx.contrEquiv1 dot_S1024x512_S400x512_S1024x400_1_1_0_0_n_n 512 rfl rfl).symm d) = ix2 k d := funext fun ax => Fin.ext (by
    match ax with
    | ⟨0, _⟩ => exact rhs_dot_0 _ _
    | ⟨1, _⟩ => exact (rhs_dot_1 _ _).trans hd)
  rw [el, er]

/-- The run at row r: the sum over its 400 lanes; a lane's class word is the run's first word plus the lane. -/
theorem runVec_apply (v4 : FVec Ideal S1024x512 .bf16) (w : BitVec 32) (v10 : IVec S1024x1 32) (blk : FVec Ideal S400x512 .f32)
    (r : Fin 1024) :
    runVec (F := Ideal) v4 w v10 blk (ix2 r (0 : Fin 1))
      = ∑ k : Fin 400, (if w + BitVec.ofNat 32 k.val = v10 (ix2 r (0 : Fin 1)) then (0 : EReal)
          else Ideal.exp (scale * ∑ d : Fin 512, v4 (ix2 r d) * blk (ix2 k d))) := by
  unfold runVec
  refine (shapeCast_apply _ shapeCasts_S1024_S1024x1 (ix2 r (0 : Fin 1)) (ix1 r) ?_).trans ?_
  · rw [Shape.rowMajor_val_one, Shape.rowMajor_val_two]
    show r.val = r.val * 1 + 0
    omega
  refine (Ideal.multiReduction_add_single _ _ reduces_S1024x400_S1024 (.inl rfl) rfl (ix1 r)).trans ?_
  refine Finset.sum_congr rfl fun (k : Fin 400) _ => ?_
  have hj : reduces_S1024x400_S1024.lift (ix1 r) k = ix2 r k :=
    funext fun a => Fin.ext (by match a with | ⟨0, _⟩ => rfl | ⟨1, _⟩ => rfl)
  refine (congrArg _ hj).trans ?_
  refine (select_apply _ _ _ (ix2 r k)).trans ?_
  refine (select_cmpi_eq _ _ _ _).trans ?_
  have hio : iota .tc S1024x400 32 [1] iota_S1024x400_d1_w32 (ix2 r k) = BitVec.ofNat 32 k.val :=
    iota_single_apply .tc S1024x400 32 1 iota_S1024x400_d1_w32 (ix2 r k)
  have hc : addi (broadcast S1024x400 w) (iota .tc S1024x400 32 [1] iota_S1024x400_d1_w32) (ix2 r k)
      = w + BitVec.ofNat 32 k.val := congrArg (w + ·) hio
  have hb : broadcastTo S1024x400 v10 broadcasts_S1024x1_S1024x400 (ix2 r k) = v10 (ix2 r (0 : Fin 1)) :=
    broadcastTo_apply v10 broadcasts_S1024x1_S1024x400 (ix2 r k) (ix2 r (0 : Fin 1)) (fun a => by
      match a with
      | ⟨0, _⟩ => show r.val = if (1024 : Nat) = 1 then 0 else r.val; rw [if_neg (by decide)]
      | ⟨1, _⟩ => show (0 : Nat) = if (1 : Nat) = 1 then 0 else k.val; rw [if_pos rfl])
  have hm := matmul_apply_rk v4 (truncf .bf16 blk bitsLt_bf16_f32) r k
  have he : exp (mulf (broadcast S1024x400 (FloatOps.ofBits (F := Ideal) .f32 0x41F00000#32))
        (matmul dot_S1024x512_S400x512_S1024x400_1_1_0_0_n_n none v4 (truncf .bf16 blk bitsLt_bf16_f32)
          (constant S1024x400 .f32 0x00000000#32))) (ix2 r k)
      = Ideal.exp (scale * ∑ d : Fin 512, v4 (ix2 r d) * blk (ix2 k d)) :=
    congrArg (fun z => Ideal.exp (scale * z)) hm
  exact if_congr ⟨fun h => hc.symm.trans (h.trans hb), fun h => hc.trans (h.trans hb.symm)⟩ Ideal.ofBits_zero_f32 he

/-- The five run sums of a tile, one after the other from zero: a column vector over the rows. -/
def tileSum (i : grid0.Coords) (x0 : Vec F S1024x512 .bf16) (x1 : Vec F S2000x512 .f32) (x2 : Vec F S1024x128 .i32) :
    FVec F S1024x1 .f32 :=
  addf (addf (addf (addf (addf (broadcast S1024x1 (Scalar.ofBits (F := F) .f32 0x00000000#32))
    (runVec (k0_pay3 x0) (Scalar.addi (tileBase (i 0).val (i 1).val) 0#32) (k0_pay4 x2)
      (View.ld x1 (Rect.unit (s := S2000x512) ![0, 0] S400x512.size inb_S2000x512_S400x512_0_0))))
    (runVec (k0_pay3 x0) (Scalar.addi (tileBase (i 0).val (i 1).val) 400#32) (k0_pay4 x2)
      (View.ld x1 (Rect.unit (s := S2000x512) ![400, 0] S400x512.size inb_S2000x512_S400x512_400_0))))
    (runVec (k0_pay3 x0) (Scalar.addi (tileBase (i 0).val (i 1).val) 800#32) (k0_pay4 x2)
      (View.ld x1 (Rect.unit (s := S2000x512) ![800, 0] S400x512.size inb_S2000x512_S400x512_800_0))))
    (runVec (k0_pay3 x0) (Scalar.addi (tileBase (i 0).val (i 1).val) 1200#32) (k0_pay4 x2)
      (View.ld x1 (Rect.unit (s := S2000x512) ![1200, 0] S400x512.size inb_S2000x512_S400x512_1200_0))))
    (runVec (k0_pay3 x0) (Scalar.addi (tileBase (i 0).val (i 1).val) 1600#32) (k0_pay4 x2)
      (View.ld x1 (Rect.unit (s := S2000x512) ![1600, 0] S400x512.size inb_S2000x512_S400x512_1600_0)))

/-- What a grid point stores to the scratch: the accumulator it loaded plus the tile's sums, each row's in every lane. -/
def payload (i : grid0.Coords) (x0 : Vec F S1024x512 .bf16) (x1 : Vec F S2000x512 .f32) (x2 : Vec F S1024x128 .i32)
    (acc : Vec F S1024x128 .f32) : FVec F S1024x128 .f32 :=
  shapeCast S1024x128
    (addf acc (broadcastTo S1024x128 (shapeCast S1024x1 (tileSum i x0 x1 x2) shapeCasts_S1024x1_S1024x1)
      broadcasts_S1024x1_S1024x128))
    shapeCasts_S1024x128_S1024x128

/-- The kernel's stored value, over its loads, is that. -/
theorem pay1_eq_payload (i : grid0.Coords) (x0 : Vec F S1024x512 .bf16) (x1 : Vec F S2000x512 .f32) (x2 : Vec F S1024x128 .i32)
    (acc : Vec F S1024x128 .f32) :
    k0_pay1 (k0_pay3 x0)
      (Scalar.muli (Scalar.addi (Scalar.muli (BitVec.ofNat 32 (i 0).val) 25#32) (BitVec.ofNat 32 (i 1).val)) 2000#32)
      (k0_pay4 x2)
      (k0_pay9 (k0_pay3 x0)
        (Scalar.muli (Scalar.addi (Scalar.muli (BitVec.ofNat 32 (i 0).val) 25#32) (BitVec.ofNat 32 (i 1).val)) 2000#32)
        (k0_pay4 x2) (k0_pay5 i x0 x2 (View.ld x1 (Rect.unit (s := S2000x512) ![0, 0] S400x512.size inb_S2000x512_S400x512_0_0)))
        (k0_pay6 x0 (View.ld x1 (Rect.unit (s := S2000x512) ![400, 0] S400x512.size inb_S2000x512_S400x512_400_0))) (k0_pay7 i)
        (k0_pay8 x2) (View.ld x1 (Rect.unit (s := S2000x512) ![800, 0] S400x512.size inb_S2000x512_S400x512_800_0))
        (View.ld x1 (Rect.unit (s := S2000x512) ![1200, 0] S400x512.size inb_S2000x512_S400x512_1200_0)))
      (View.ld x1 (Rect.unit (s := S2000x512) ![1600, 0] S400x512.size inb_S2000x512_S400x512_1600_0)) acc
      = payload i x0 x1 x2 acc := rfl

/-- The input block goes into the products as it is loaded. -/
theorem pay3_eq (x0 : Vec F S1024x512 .bf16) : k0_pay3 x0 = x0 := shapeCast_self x0 _

/-- The label column the kernel compares with: lane 0 of the label block. -/
theorem pay4_apply (x2 : Vec F S1024x128 .i32) (r : Fin 1024) :
    k0_pay4 x2 (ix2 r (0 : Fin 1)) = x2 (ix2 r (0 : Fin 128)) :=
  (slice2_axis1_apply 0 _ slices_S1024x128_o0_0_S1024x1 r (0 : Fin 1) (0 : Fin 128) rfl).trans
    (congrFun (shapeCast_self x2 _) _)

/-- Rows [o, o + 400) of the weight block, o = 400 j: row k of the load is row subRow j k of the block. -/
theorem ld_rows (x1 : Vec F S2000x512 .f32) (j : Fin 5) (o : Nat) (ho : o = j.val * 400)
    (inb : ∀ a, (![o, 0] : Fin 2 → Nat) a + S400x512.size a ≤ S2000x512.size a) (k : Fin 400) (d : Fin 512) :
    View.ld x1 (Rect.unit (s := S2000x512) ![o, 0] S400x512.size inb) (ix2 k d) = x1 (ix2 (subRow j k) d) := by
  subst ho
  refine congrArg x1 (funext fun a => Fin.ext ?_)
  match a with
  | ⟨0, _⟩ => show j.val * 400 + 1 * k.val = j.val * 400 + k.val; omega
  | ⟨1, _⟩ => show 0 + 1 * d.val = d.val; omega

/-- Run j of a tile at row r is the sum of the block-level terms of its 400 classes. -/
theorem run_eq (x0 : Vec Ideal S1024x512 .bf16) (x1 : Vec Ideal S2000x512 .f32) (x2 : Vec Ideal S1024x128 .i32)
    (tb : BitVec 32) (j : Fin 5) (o : Nat) (ho : o = j.val * 400)
    (inb : ∀ a, (![o, 0] : Fin 2 → Nat) a + S400x512.size a ≤ S2000x512.size a) (r : Fin 1024) :
    runVec (F := Ideal) (k0_pay3 x0) (Scalar.addi tb (BitVec.ofNat 32 o)) (k0_pay4 x2)
        (View.ld x1 (Rect.unit (s := S2000x512) ![o, 0] S400x512.size inb)) (ix2 r (0 : Fin 1))
      = ∑ k : Fin 400, blkTerm x0 x1 x2 tb r (subRow j k) := by
  refine (runVec_apply _ _ _ _ r).trans ?_
  refine Finset.sum_congr rfl fun k _ => ?_
  unfold blkTerm blkLogit
  have hw : Scalar.addi tb (BitVec.ofNat 32 o) + BitVec.ofNat 32 k.val = tb + BitVec.ofNat 32 (subRow j k).val := by
    show (tb + BitVec.ofNat 32 o) + BitVec.ofNat 32 k.val = tb + BitVec.ofNat 32 (j.val * 400 + k.val)
    rw [BitVec.add_assoc, ← BitVec.ofNat_add, ho]
  rw [hw, pay4_apply, pay3_eq]
  refine if_congr Iff.rfl rfl (congrArg (fun z => Ideal.exp (scale * z)) (Finset.sum_congr rfl fun d _ => ?_))
  rw [ld_rows x1 j o ho inb k d]

/-- Five additions in a row, term by term. -/
theorem chain5 {a a' b0 b0' b1 b1' b2 b2' b3 b3' b4 b4' : EReal} (ha : a = a') (h0 : b0 = b0') (h1 : b1 = b1')
    (h2 : b2 = b2') (h3 : b3 = b3') (h4 : b4 = b4') :
    ((((a + b0) + b1) + b2) + b3) + b4 = ((((a' + b0') + b1') + b2') + b3') + b4' := by
  subst ha h0 h1 h2 h3 h4; rfl

/-- The tile's sums at row r: the block-level sum of the tile. -/
theorem tileSum_apply (i : grid0.Coords) (x0 : Vec Ideal S1024x512 .bf16) (x1 : Vec Ideal S2000x512 .f32)
    (x2 : Vec Ideal S1024x128 .i32) (r : Fin 1024) :
    tileSum (F := Ideal) i x0 x1 x2 (ix2 r (0 : Fin 1)) = blkSum x0 x1 x2 (tileBase (i 0).val (i 1).val) r :=
  chain5 Ideal.ofBits_zero_f32
    (run_eq x0 x1 x2 (tileBase (i 0).val (i 1).val) 0 0 rfl inb_S2000x512_S400x512_0_0 r)
    (run_eq x0 x1 x2 (tileBase (i 0).val (i 1).val) 1 400 rfl inb_S2000x512_S400x512_400_0 r)
    (run_eq x0 x1 x2 (tileBase (i 0).val (i 1).val) 2 800 rfl inb_S2000x512_S400x512_800_0 r)
    (run_eq x0 x1 x2 (tileBase (i 0).val (i 1).val) 3 1200 rfl inb_S2000x512_S400x512_1200_0 r)
    (run_eq x0 x1 x2 (tileBase (i 0).val (i 1).val) 4 1600 rfl inb_S2000x512_S400x512_1600_0 r)

/-- The stored value at (r, l): what the accumulator held there plus the tile's sum for row r. -/
theorem payload_apply (i : grid0.Coords) (x0 : Vec Ideal S1024x512 .bf16) (x1 : Vec Ideal S2000x512 .f32)
    (x2 : Vec Ideal S1024x128 .i32) (acc : Vec Ideal S1024x128 .f32) (r : Fin 1024) (l : Fin 128) :
    (payload (F := Ideal) i x0 x1 x2 acc : S1024x128.Idx → EReal) (ix2 r l)
      = (acc : S1024x128.Idx → EReal) (ix2 r l) + blkSum x0 x1 x2 (tileBase (i 0).val (i 1).val) r := by
  unfold payload
  refine (congrFun (shapeCast_self _ shapeCasts_S1024x128_S1024x128) (ix2 r l)).trans ?_
  refine congrArg (acc (ix2 r l) + ·) ?_
  refine (broadcastTo_apply _ broadcasts_S1024x1_S1024x128 (ix2 r l) (ix2 r (0 : Fin 1)) (fun a => by
    match a with
    | ⟨0, _⟩ => show r.val = if (1024 : Nat) = 1 then 0 else r.val; rw [if_neg (by decide)]
    | ⟨1, _⟩ => show (0 : Nat) = if (1 : Nat) = 1 then 0 else l.val; rw [if_pos rfl])).trans ?_
  refine (congrFun (shapeCast_self _ shapeCasts_S1024x1_S1024x1) (ix2 r (0 : Fin 1))).trans ?_
  exact tileSum_apply i x0 x1 x2 r

/-- A middle tile leaves in the scratch the stored value over the blocks it was handed and what the scratch held. -/
theorem pieceB (c : Dev nD) (i : grid0.Coords) (arg2 : Memref sig .tc .vmem S1024x512 .bf16) (harg2 : arg2.IsWhole) (arg3 : Memref sig .tc .vmem S2000x512 .f32) (harg3 : arg3.IsWhole) (arg4 : Memref sig .tc .vmem S1024x128 .i32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x512 .bf16) (x1 : Vec F S2000x512 .f32) (x2 : Vec F S1024x128 .i32) (xs0 : Vec F S1024x128 .f32) :
    sout0_B_0 (F := F) c i arg2 harg2 arg3 harg3 arg4 harg4 arg5 harg5 arg6 harg6 hc0 hc1 x0 x1 x2 xs0 = payload i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread, View.ld_unit_zero (S := S1024x128) hz, View.ld_unit_zero (S := S1024x512) hz]
  exact pay1_eq_payload i x0 x1 x2 xs0

/-- A core's last tile leaves the same in the scratch, -/
theorem pieceC (c : Dev nD) (i : grid0.Coords) (arg2 : Memref sig .tc .vmem S1024x512 .bf16) (harg2 : arg2.IsWhole) (arg3 : Memref sig .tc .vmem S2000x512 .f32) (harg3 : arg3.IsWhole) (arg4 : Memref sig .tc .vmem S1024x128 .i32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x512 .bf16) (x1 : Vec F S2000x512 .f32) (x2 : Vec F S1024x128 .i32) (xs0 : Vec F S1024x128 .f32) :
    sout0_C_0 (F := F) c i arg2 harg2 arg3 harg3 arg4 harg4 arg5 harg5 arg6 harg6 hc0 hc1 x0 x1 x2 xs0 = payload i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S1024x128) hz, View.ld_unit_zero (S := S1024x512) hz]
  exact pay1_eq_payload i x0 x1 x2 xs0

/-- and in the output block: the scratch read back after its store is the stored value. -/
theorem pieceCo (c : Dev nD) (i : grid0.Coords) (arg2 : Memref sig .tc .vmem S1024x512 .bf16) (harg2 : arg2.IsWhole) (arg3 : Memref sig .tc .vmem S2000x512 .f32) (harg3 : arg3.IsWhole) (arg4 : Memref sig .tc .vmem S1024x128 .i32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x512 .bf16) (x1 : Vec F S2000x512 .f32) (x2 : Vec F S1024x128 .i32) (xs0 : Vec F S1024x128 .f32) :
    out0_C_3 (F := F) c i arg2 harg2 arg3 harg3 arg4 harg4 arg5 harg5 arg6 harg6 hc0 hc1 x0 x1 x2 xs0 = payload i x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S1024x128) hz, View.ld_unit_zero (S := S1024x512) hz, View.readCov_unit_zero (S := S1024x128) _ hz]
  exact pay1_eq_payload i x0 x1 x2 xs0

/-- A core's first tile: the accumulator the stored value adds to is the zero fill it has just written. -/
theorem pieceA (c : Dev nD) (i : grid0.Coords) (arg2 : Memref sig .tc .vmem S1024x512 .bf16) (harg2 : arg2.IsWhole) (arg3 : Memref sig .tc .vmem S2000x512 .f32) (harg3 : arg3.IsWhole) (arg4 : Memref sig .tc .vmem S1024x128 .i32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x512 .bf16) (x1 : Vec F S2000x512 .f32) (x2 : Vec F S1024x128 .i32) :
    sout0_A_0 (F := F) c i arg2 harg2 arg3 harg3 arg4 harg4 arg5 harg5 arg6 harg6 hc0 hc1 x0 x1 x2 = payload i x0 x1 x2 (k0_pay2 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x128) hz]
  simp only [View.readAt_eq_ld, harg2.read_unread, harg3.read_unread, harg4.read_unread, harg6.read_unread, View.ld_unit_zero (S := S1024x128) hz, View.ld_unit_zero (S := S1024x512) hz, View.readCov_unit_zero (S := S1024x128) _ hz]
  exact pay1_eq_payload i x0 x1 x2 k0_pay2

/-- The zero fill is zero at every entry. -/
theorem pay2_apply (r : Fin 1024) (l : Fin 128) : (k0_pay2 (F := Ideal) : S1024x128.Idx → EReal) (ix2 r l) = 0 :=
  (congrFun (shapeCast_self (broadcast S1024x128 (Scalar.ofBits (F := Ideal) .f32 0x00000000#32))
    shapeCasts_S1024x128_S1024x128) (ix2 r l)).trans Ideal.ofBits_zero_f32

/-- A core's first tile: the scratch is cleared, then the tile's sum is added. -/
theorem scratch_A (c : Dev nD) (i : grid0.Coords) (arg2 : Memref sig .tc .vmem S1024x512 .bf16) (harg2 : arg2.IsWhole) (arg3 : Memref sig .tc .vmem S2000x512 .f32) (harg3 : arg3.IsWhole) (arg4 : Memref sig .tc .vmem S1024x128 .i32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec Ideal S1024x512 .bf16) (x1 : Vec Ideal S2000x512 .f32) (x2 : Vec Ideal S1024x128 .i32) (r : Fin 1024) (l : Fin 128) :
    (sout0_A_0 (F := Ideal) c i arg2 harg2 arg3 harg3 arg4 harg4 arg5 harg5 arg6 harg6 hc0 hc1 x0 x1 x2 : S1024x128.Idx → EReal) (ix2 r l)
      = 0 + blkSum x0 x1 x2 (tileBase (i 0).val (i 1).val) r :=
  (congrFun (pieceA (F := Ideal) c i arg2 harg2 arg3 harg3 arg4 harg4 arg5 harg5 arg6 harg6 hc0 hc1 x0 x1 x2) (ix2 r l)).trans
    ((payload_apply i x0 x1 x2 (k0_pay2 (F := Ideal)) r l).trans
      (congrArg (· + blkSum x0 x1 x2 (tileBase (i 0).val (i 1).val) r) (pay2_apply r l)))

/-- A tile in the middle: the tile's sum is added to what the point before left. -/
theorem scratch_B (c : Dev nD) (i : grid0.Coords) (arg2 : Memref sig .tc .vmem S1024x512 .bf16) (harg2 : arg2.IsWhole) (arg3 : Memref sig .tc .vmem S2000x512 .f32) (harg3 : arg3.IsWhole) (arg4 : Memref sig .tc .vmem S1024x128 .i32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec Ideal S1024x512 .bf16) (x1 : Vec Ideal S2000x512 .f32) (x2 : Vec Ideal S1024x128 .i32) (xs0 : Vec Ideal S1024x128 .f32) (r : Fin 1024) (l : Fin 128) :
    (sout0_B_0 (F := Ideal) c i arg2 harg2 arg3 harg3 arg4 harg4 arg5 harg5 arg6 harg6 hc0 hc1 x0 x1 x2 xs0 : S1024x128.Idx → EReal) (ix2 r l)
      = (xs0 : S1024x128.Idx → EReal) (ix2 r l) + blkSum x0 x1 x2 (tileBase (i 0).val (i 1).val) r :=
  (congrFun (pieceB (F := Ideal) c i arg2 harg2 arg3 harg3 arg4 harg4 arg5 harg5 arg6 harg6 hc0 hc1 x0 x1 x2 xs0) (ix2 r l)).trans (payload_apply i x0 x1 x2 xs0 r l)

/-- A core's last tile: the same in the scratch, -/
theorem scratch_C (c : Dev nD) (i : grid0.Coords) (arg2 : Memref sig .tc .vmem S1024x512 .bf16) (harg2 : arg2.IsWhole) (arg3 : Memref sig .tc .vmem S2000x512 .f32) (harg3 : arg3.IsWhole) (arg4 : Memref sig .tc .vmem S1024x128 .i32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec Ideal S1024x512 .bf16) (x1 : Vec Ideal S2000x512 .f32) (x2 : Vec Ideal S1024x128 .i32) (xs0 : Vec Ideal S1024x128 .f32) (r : Fin 1024) (l : Fin 128) :
    (sout0_C_0 (F := Ideal) c i arg2 harg2 arg3 harg3 arg4 harg4 arg5 harg5 arg6 harg6 hc0 hc1 x0 x1 x2 xs0 : S1024x128.Idx → EReal) (ix2 r l)
      = (xs0 : S1024x128.Idx → EReal) (ix2 r l) + blkSum x0 x1 x2 (tileBase (i 0).val (i 1).val) r :=
  (congrFun (pieceC (F := Ideal) c i arg2 harg2 arg3 harg3 arg4 harg4 arg5 harg5 arg6 harg6 hc0 hc1 x0 x1 x2 xs0) (ix2 r l)).trans (payload_apply i x0 x1 x2 xs0 r l)

/-- and the scratch copied to the output block. -/
theorem out_C (c : Dev nD) (i : grid0.Coords) (arg2 : Memref sig .tc .vmem S1024x512 .bf16) (harg2 : arg2.IsWhole) (arg3 : Memref sig .tc .vmem S2000x512 .f32) (harg3 : arg3.IsWhole) (arg4 : Memref sig .tc .vmem S1024x128 .i32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec Ideal S1024x512 .bf16) (x1 : Vec Ideal S2000x512 .f32) (x2 : Vec Ideal S1024x128 .i32) (xs0 : Vec Ideal S1024x128 .f32) (r : Fin 1024) (l : Fin 128) :
    (out0_C_3 (F := Ideal) c i arg2 harg2 arg3 harg3 arg4 harg4 arg5 harg5 arg6 harg6 hc0 hc1 x0 x1 x2 xs0 : S1024x128.Idx → EReal) (ix2 r l)
      = (xs0 : S1024x128.Idx → EReal) (ix2 r l) + blkSum x0 x1 x2 (tileBase (i 0).val (i 1).val) r :=
  (congrFun (pieceCo (F := Ideal) c i arg2 harg2 arg3 harg3 arg4 harg4 arg5 harg5 arg6 harg6 hc0 hc1 x0 x1 x2 xs0) (ix2 r l)).trans (payload_apply i x0 x1 x2 xs0 r l)

end Cert.MarginLoss.KBody

end
-- ==== Proof.KValue.lean ====
/-
  The kernel's output array, from the grid.  Point `n` of the 50 is tile `n` (core `n / 25`, step `n % 25`); it adds
  its tile's sum to a scratch that is cleared at each core's first tile, so after point `n` the scratch holds, in
  every lane of row `r`, the sum of the tile sums of the core's tiles up to `n`.  Each core's last tile copies the
  scratch to that core's 128-lane half of the [1024 × 256] output, so lane `q` of row `r` ends at the sum of the 25
  tile sums of core `q / 128`.
-/
import proofs.«408675_j41463614276215_3_alg».proof.Proof.Spec
import proofs.«408675_j41463614276215_3_alg».proof.Proof.KBody
import proofs.«408675_j41463614276215_3_alg».proof.Proof.Gen.KernelIdeal.Frame
import Idealize.ShloMosaic.Lib.Pipeline.Value

set_option maxRecDepth 16384

noncomputable section

open scoped BigOperators

namespace Cert.MarginLoss

/-! ## A sum that restarts every 25 steps -/

/-- `f 0`, then `+ f n`, starting again from zero at every multiple of 25. -/
def restartSum {M : Type*} [AddCommMonoid M] (f : ℕ → M) : ℕ → M
  | 0 => 0 + f 0
  | n + 1 => if (n + 1) % 25 = 0 then 0 + f (n + 1) else restartSum f n + f (n + 1)

theorem restartSum_of_mod {M : Type*} [AddCommMonoid M] (f : ℕ → M) (n : ℕ) (h : n % 25 = 0) :
    restartSum f n = 0 + f n := by
  cases n with
  | zero => rfl
  | succ k => exact if_pos h

theorem restartSum_succ {M : Type*} [AddCommMonoid M] (f : ℕ → M) (n : ℕ) (h : ¬(n + 1) % 25 = 0) :
    restartSum f (n + 1) = restartSum f n + f (n + 1) := if_neg h

/-- Step `k` of the `p`-th stretch of 25 holds the stretch's first `k + 1` terms. -/
theorem restartSum_eq {M : Type*} [AddCommMonoid M] (f : ℕ → M) (p : ℕ) :
    ∀ k : ℕ, k < 25 → restartSum f (25 * p + k) = ∑ j ∈ Finset.range (k + 1), f (25 * p + j)
  | 0, _ => by
    rw [restartSum_of_mod f _ (by omega), zero_add, Finset.sum_range_one]
  | k + 1, hk => by
    rw [show 25 * p + (k + 1) = (25 * p + k) + 1 from by omega, restartSum_succ f _ (by omega),
      restartSum_eq f p k (by omega), Finset.sum_range_succ (fun j => f (25 * p + j)) (k + 1)]
    rfl

end Cert.MarginLoss

namespace Cert.MarginLoss.KValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The blocks point `t` is handed, at their literal types. -/
abbrev xblk (c : Dev nD) (t : Fin cfg0.N) : Vec Ideal S1024x512 .bf16 := iblk m c 0 t
abbrev wblk (c : Dev nD) (t : Fin cfg0.N) : Vec Ideal S2000x512 .f32 := iblk m c 1 t
abbrev lblk (c : Dev nD) (t : Fin cfg0.N) : Vec Ideal S1024x128 .i32 := iblk m c 2 t

/-- Tile `t`'s sum for row `r`, from the blocks point `t` is handed. -/
def tileSum (c : Dev nD) (t : Fin cfg0.N) (r : Fin 1024) : EReal :=
  blkSum (xblk m c t) (wblk m c t) (lblk m c t) (tileBase ((grid0.coords t) 0).val ((grid0.coords t) 1).val) r

/-- The same over every natural number (zero past the grid). -/
def tileN (c : Dev nD) (r : Fin 1024) (n : ℕ) : EReal := if h : n < cfg0.N then tileSum m c ⟨n, h⟩ r else 0

theorem tileN_of_lt (c : Dev nD) (r : Fin 1024) (n : ℕ) (h : n < cfg0.N) : tileN m c r n = tileSum m c ⟨n, h⟩ r :=
  dif_pos h

/-- After point `n` every lane of row `r` of the scratch holds the restarting sum of the tile sums. -/
theorem scratch_eq (c : Dev nD) : ∀ (n : ℕ) (h : n < cfg0.N) (r : Fin 1024) (l : Fin 128),
    ((outsAt0 m c n h).2 : S1024x128.Idx → EReal) (ix2 r l) = restartSum (tileN m c r) n
  | 0, h, r, l => by
    have e := outsAt0_A m c ⟨0, h⟩ (Nat.zero_mod _) (show ¬(0 % 25 = 24) from by decide)
    rw [show outsAt0 m c 0 h = outsAt0 m c (⟨0, h⟩ : Fin cfg0.N).val (⟨0, h⟩ : Fin cfg0.N).isLt from rfl, e]
    dsimp only
    rw [KBody.scratch_A c (grid0.coords ⟨0, h⟩) (ms0_0 ⟨0, h⟩) (hs0_0 ⟨0, h⟩) (ms0_1 ⟨0, h⟩) (hs0_1 ⟨0, h⟩) (ms0_2 ⟨0, h⟩)
      (hs0_2 ⟨0, h⟩) (ms0_3 ⟨0, h⟩) (hs0_3 ⟨0, h⟩) scM0_0 (Memref.isWhole_whole _) ((hcond0_0 ⟨0, h⟩).mpr (Nat.zero_mod _))
      (fun hh => (by decide : ¬(0 % 25 = 24)) ((hcond0_1 ⟨0, h⟩).mp hh)) (xblk m c ⟨0, h⟩) (wblk m c ⟨0, h⟩) (lblk m c ⟨0, h⟩) r l]
    rw [restartSum_of_mod _ 0 (Nat.zero_mod _), tileN_of_lt m c r 0 h]
    rfl
  | n + 1, h, r, l => by
    have hN : n + 1 < 50 := lt_of_lt_of_eq h (show cfg0.N = 50 from N_0)
    by_cases h0 : (n + 1) % 25 = 0
    · have h1 : ¬(n + 1) % 25 = 24 := by omega
      have e := outsAt0_A m c ⟨n + 1, h⟩ h0 h1
      rw [show outsAt0 m c (n + 1) h = outsAt0 m c (⟨n + 1, h⟩ : Fin cfg0.N).val (⟨n + 1, h⟩ : Fin cfg0.N).isLt from rfl, e]
      dsimp only
      rw [KBody.scratch_A c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _)
        ((hcond0_0 ⟨n + 1, h⟩).mpr h0) (fun hh => h1 ((hcond0_1 ⟨n + 1, h⟩).mp hh))
        (xblk m c ⟨n + 1, h⟩) (wblk m c ⟨n + 1, h⟩) (lblk m c ⟨n + 1, h⟩) r l]
      rw [restartSum_of_mod _ (n + 1) h0, tileN_of_lt m c r (n + 1) h]
      rfl
    · by_cases h1 : (n + 1) % 25 = 24
      · have e := outsAt0_C m c ⟨n + 1, h⟩ h0 h1
        rw [show outsAt0 m c (n + 1) h = outsAt0 m c (⟨n + 1, h⟩ : Fin cfg0.N).val (⟨n + 1, h⟩ : Fin cfg0.N).isLt from rfl, e]
        dsimp only
        rw [KBody.scratch_C c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) scM0_0 (Memref.isWhole_whole _)
          (fun hh => h0 ((hcond0_0 ⟨n + 1, h⟩).mp hh)) ((hcond0_1 ⟨n + 1, h⟩).mpr h1)
          (xblk m c ⟨n + 1, h⟩) (wblk m c ⟨n + 1, h⟩) (lblk m c ⟨n + 1, h⟩)
          (outsAt0 m c ((⟨n + 1, h⟩ : Fin cfg0.N).val - 1) (Nat.lt_of_le_of_lt (Nat.sub_le _ _) (⟨n + 1, h⟩ : Fin cfg0.N).isLt)).2 r l]
        show ((outsAt0 m c n _).2 : S1024x128.Idx → EReal) (ix2 r l) + _ = _
        rw [scratch_eq c n (Nat.lt_of_succ_lt h) r l, restartSum_succ _ n h0, tileN_of_lt m c r (n + 1) h]
        rfl
      · have e := outsAt0_B m c ⟨n + 1, h⟩ h0 h1
        rw [show outsAt0 m c (n + 1) h = outsAt0 m c (⟨n + 1, h⟩ : Fin cfg0.N).val (⟨n + 1, h⟩ : Fin cfg0.N).isLt from rfl, e]
        dsimp only
        rw [KBody.scratch_B c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) scM0_0 (Memref.isWhole_whole _)
          (fun hh => h0 ((hcond0_0 ⟨n + 1, h⟩).mp hh)) (fun hh => h1 ((hcond0_1 ⟨n + 1, h⟩).mp hh))
          (xblk m c ⟨n + 1, h⟩) (wblk m c ⟨n + 1, h⟩) (lblk m c ⟨n + 1, h⟩)
          (outsAt0 m c ((⟨n + 1, h⟩ : Fin cfg0.N).val - 1) (Nat.lt_of_le_of_lt (Nat.sub_le _ _) (⟨n + 1, h⟩ : Fin cfg0.N).isLt)).2 r l]
        show ((outsAt0 m c n _).2 : S1024x128.Idx → EReal) (ix2 r l) + _ = _
        rw [scratch_eq c n (Nat.lt_of_succ_lt h) r l, restartSum_succ _ n h0, tileN_of_lt m c r (n + 1) h]
        rfl

/-- At a core's last tile the output block is handed the same. -/
theorem outblk_eq (c : Dev nD) (t : Fin cfg0.N) (h1 : t.val % 25 = 24) (r : Fin 1024) (l : Fin 128) :
    ((outsAt0 m c t.val t.isLt).1 : S1024x128.Idx → EReal) (ix2 r l) = restartSum (tileN m c r) t.val := by
  obtain ⟨n, h⟩ := t
  cases n with
  | zero => exact absurd h1 (show ¬(0 % 25 = 24) from by decide)
  | succ n =>
    have h1' : (n + 1) % 25 = 24 := h1
    have h0 : ¬(n + 1) % 25 = 0 := by omega
    have e := outsAt0_C m c ⟨n + 1, h⟩ h0 h1'
    rw [e]
    dsimp only
    rw [KBody.out_C c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) scM0_0 (Memref.isWhole_whole _)
      (fun hh => h0 ((hcond0_0 ⟨n + 1, h⟩).mp hh)) ((hcond0_1 ⟨n + 1, h⟩).mpr h1')
      (xblk m c ⟨n + 1, h⟩) (wblk m c ⟨n + 1, h⟩) (lblk m c ⟨n + 1, h⟩)
      (outsAt0 m c ((⟨n + 1, h⟩ : Fin cfg0.N).val - 1) (Nat.lt_of_le_of_lt (Nat.sub_le _ _) (⟨n + 1, h⟩ : Fin cfg0.N).isLt)).2 r l]
    show ((outsAt0 m c n _).2 : S1024x128.Idx → EReal) (ix2 r l) + _ = _
    rw [scratch_eq m c n (Nat.lt_of_succ_lt h) r l, restartSum_succ _ n h0, tileN_of_lt m c r (n + 1) h]
    rfl

/-- What the output array ends holding: lane `q` of row `r` is the restarting sum at the last tile of core `q / 128`. -/
def outFn (c : Dev nD) : S1024x256.Idx → EReal :=
  fun idx => restartSum (tileN m c ⟨(idx 0).val, (idx 0).isLt⟩) (25 * ((idx 1).val / 128) + 24)

/-- The same as contents of the output array's buffer. -/
abbrev outArr (c : Dev nD) : Buf (Elt Ideal) ((c : Thread nD τ).loc main_v11) := outFn m c

/-- The last point of core 0 and of core 1. -/
abbrev tEnd0 : Fin cfg0.N := ⟨24, by rw [show cfg0.N = 50 from N_0]; decide⟩
abbrev tEnd1 : Fin cfg0.N := ⟨49, by rw [show cfg0.N = 50 from N_0]; decide⟩

/-- The output window's block indices over the grid: always row block 0, lane block = the core. -/
theorem out_index : ∀ t : Fin cfg0.N, win0_3.index t (0 : Fin 2) = 0 ∧ win0_3.index t (1 : Fin 2) = t.val / 25 :=
  (by decide +kernel : ∀ t : Fin grid0.N, win0_3.index t (0 : Fin 2) = 0 ∧ win0_3.index t (1 : Fin 2) = t.val / 25)

/-- What a core's last tile writes back is its block of `outArr`. -/
theorem flushed_eq (c : Dev nD) (t : Fin cfg0.N) (hf : (cfg0.win 3).flush t = true) :
    (dats m 0 c).flushed 3 t = ((cfg0.win 3).blk t).view.read (Elt Ideal) (outArr m c) := by
  have h24 : t.val % 25 = 24 := (flush0_3 t).mp hf
  have hN : t.val < 50 := lt_of_lt_of_eq t.isLt (show cfg0.N = 50 from N_0)
  obtain ⟨i0, i1⟩ := out_index t
  show (cfg0.win 3).cut (grid0.coords t) ((dats m 0 c).after 3 t) = _
  rw [after0_3]
  funext j
  obtain ⟨r, l, rfl⟩ : ∃ (r : Fin 1024) (l : Fin 128), j = ix2 r l := ⟨j 0, j 1, eq_ix2 j⟩
  rw [View.read_apply]
  show ((outsAt0 m c t.val t.isLt).1 : S1024x128.Idx → EReal) (ix2 r l) = outArr m c (((cfg0.win 3).blk t).view.emb (ix2 r l))
  rw [outblk_eq m c t h24 r l]
  have e0 : ((((cfg0.win 3).blk t).view.emb (ix2 r l)) 0).val = r.val := by
    show win0_3.index t (0 : Fin 2) * 1024 + 1 * r.val = r.val
    rw [i0]; omega
  have e1 : ((((cfg0.win 3).blk t).view.emb (ix2 r l)) 1).val = t.val / 25 * 128 + l.val := by
    show win0_3.index t (1 : Fin 2) * 128 + 1 * l.val = t.val / 25 * 128 + l.val
    rw [i1]; omega
  show _ = restartSum (tileN m c ⟨((((cfg0.win 3).blk t).view.emb (ix2 r l)) 0).val, ((((cfg0.win 3).blk t).view.emb (ix2 r l)) 0).isLt⟩)
    (25 * (((((cfg0.win 3).blk t).view.emb (ix2 r l)) 1).val / 128) + 24)
  have hl := l.isLt
  have hn : 25 * (((((cfg0.win 3).blk t).view.emb (ix2 r l)) 1).val / 128) + 24 = t.val := by rw [e1]; omega
  have hr : (⟨((((cfg0.win 3).blk t).view.emb (ix2 r l)) 0).val, ((((cfg0.win 3).blk t).view.emb (ix2 r l)) 0).isLt⟩ : Fin 1024) = r := Fin.ext e0
  rw [hn, hr]

/-- The two write-backs (points 24 and 49) cover the output array, so it ends at `outArr`. -/
theorem final_out (c : Dev nD) : (dats m 0 c).arrAt 3 cfg0.N = outArr m c :=
  (dats m 0 c).arrAt_eq_of_cover 3 (outArr m c) (flushed_eq m c) fun i => by
    have hi0 : (i 0 : Nat) < 1024 := (i 0).isLt
    have hi1 : (i 1 : Nat) < 256 := (i 1).isLt
    have hN : cfg0.N = 50 := N_0
    by_cases hlo : (i 1 : Nat) < 128
    · refine ⟨tEnd0, (flush0_3 tEnd0).mpr (show 24 % 25 = 24 from rfl), ?_⟩
      show i ∈ ((View.whole main_v11).slice (win0_3.rect tEnd0)).set
      rw [View.set_slice_whole, Rect.mem_set_unit]
      intro a
      obtain ⟨q0, q1⟩ := out_index tEnd0
      match a with
      | ⟨0, _⟩ =>
        show win0_3.index tEnd0 (0 : Fin 2) * 1024 ≤ (i 0 : Nat) ∧ (i 0 : Nat) < win0_3.index tEnd0 (0 : Fin 2) * 1024 + 1024
        rw [q0]; omega
      | ⟨1, _⟩ =>
        show win0_3.index tEnd0 (1 : Fin 2) * 128 ≤ (i 1 : Nat) ∧ (i 1 : Nat) < win0_3.index tEnd0 (1 : Fin 2) * 128 + 128
        rw [q1]; dsimp only; omega
    · refine ⟨tEnd1, (flush0_3 tEnd1).mpr (show 49 % 25 = 24 from rfl), ?_⟩
      show i ∈ ((View.whole main_v11).slice (win0_3.rect tEnd1)).set
      rw [View.set_slice_whole, Rect.mem_set_unit]
      intro a
      obtain ⟨q0, q1⟩ := out_index tEnd1
      match a with
      | ⟨0, _⟩ =>
        show win0_3.index tEnd1 (0 : Fin 2) * 1024 ≤ (i 0 : Nat) ∧ (i 0 : Nat) < win0_3.index tEnd1 (0 : Fin 2) * 1024 + 1024
        rw [q0]; omega
      | ⟨1, _⟩ =>
        show win0_3.index tEnd1 (1 : Fin 2) * 128 ≤ (i 1 : Nat) ∧ (i 1 : Nat) < win0_3.index tEnd1 (1 : Fin 2) * 128 + 128
        rw [q1]; dsimp only; omega

end Cert.MarginLoss.KValue

end
-- ==== Proof.SumLaws.lean ====
/-
  Re-arranging the denominator: a tile's five runs of 400 are its 2000 rows; a tile's rows are 2000 consecutive
  classes; the 50 tiles are the 100000 classes; the two halves of 25 tiles are the 50 tiles.  Sums over the
  extended reals re-associate and commute freely (a commutative monoid), so no finiteness is used.
-/
import proofs.«408675_j41463614276215_3_alg».proof.Proof.Spec

noncomputable section

open scoped BigOperators

namespace Cert.MarginLoss

open Idealize.ShloMosaic Idealize.ShloMosaic.ValueIdx

/-- The five runs of 400, summed one after the other from zero, are the sum over the tile's 2000 rows. -/
theorem blkSum_eq_sum (xb : (⟨2, ![1024, 512]⟩ : Shape).Idx → EReal) (wb : (⟨2, ![2000, 512]⟩ : Shape).Idx → EReal)
    (lb : (⟨2, ![1024, 128]⟩ : Shape).Idx → BitVec 32) (base : BitVec 32) (i : Fin 1024) :
    blkSum xb wb lb base i = ∑ r : Fin 2000, blkTerm xb wb lb base i r := by
  -- the 2000 rows, split as five runs of 400
  have h : ∑ r : Fin 2000, blkTerm xb wb lb base i r
      = ∑ j : Fin 5, ∑ k : Fin 400, blkTerm xb wb lb base i (subRow j k) := by
    rw [← Fintype.sum_prod_type']
    refine (Fintype.sum_equiv (finProdFinEquiv (m := 5) (n := 400)) _ _ ?_).symm
    rintro ⟨j, k⟩
    congr 1
    apply Fin.ext
    simp only [finProdFinEquiv_apply_val, subRow]
    omega
  rw [h, Fin.sum_univ_five]
  unfold blkSum
  rw [zero_add]

/-- The kernel's 32-bit arithmetic on the grid coordinates gives the word of the tile's first class. -/
theorem tileBase_eq (p c : ℕ) : tileBase p c = BitVec.ofNat 32 ((p * 25 + c) * 2000) := by
  -- the word of a natural number respects sums and products modulo 2^32
  rw [BitVec.ofNat_mul, BitVec.ofNat_add, BitVec.ofNat_mul]
  rfl

/-- Row `r` of tile `t`'s block is class `t · 2000 + r`: when the weight block holds those rows and lane 0 of
    the label block holds the labels, the block's term is that class's term. -/
theorem blkTerm_eq_term (xn : (⟨2, ![1024, 512]⟩ : Shape).Idx → EReal) (W : (⟨2, ![100000, 512]⟩ : Shape).Idx → EReal)
    (lab : (⟨1, ![1024]⟩ : Shape).Idx → BitVec 32)
    (wb : (⟨2, ![2000, 512]⟩ : Shape).Idx → EReal) (lb : (⟨2, ![1024, 128]⟩ : Shape).Idx → BitVec 32) (t : Fin 50)
    (hw : ∀ (r : Fin 2000) (d : Fin 512), wb (ix2 r d) = W (ix2 (⟨t.val * 2000 + r.val, by omega⟩ : Fin 100000) d))
    (hl : ∀ i : Fin 1024, lb (ix2 i (0 : Fin 128)) = lab (ix1 i)) (i : Fin 1024) (r : Fin 2000) :
    blkTerm xn wb lb (BitVec.ofNat 32 (t.val * 2000)) i r
      = term xn W lab i (⟨t.val * 2000 + r.val, by omega⟩ : Fin 100000) := by
  unfold blkTerm term blkLogit logit
  -- the class word is the tile's base word plus the row's word
  rw [← BitVec.ofNat_add, hl]
  simp only [hw]

/-- The 50 tiles of 2000 consecutive classes are the 100000 classes. -/
theorem sum_tiles {M : Type*} [AddCommMonoid M] (G : Fin 100000 → M) :
    ∑ t : Fin 50, ∑ r : Fin 2000, G (⟨t.val * 2000 + r.val, by omega⟩ : Fin 100000) = ∑ col : Fin 100000, G col := by
  rw [← Fintype.sum_prod_type' (f := fun (t : Fin 50) (r : Fin 2000) =>
    G (⟨t.val * 2000 + r.val, by omega⟩ : Fin 100000))]
  refine Fintype.sum_equiv (finProdFinEquiv (m := 50) (n := 2000)) _ _ ?_
  rintro ⟨t, r⟩
  congr 1
  apply Fin.ext
  simp only [finProdFinEquiv_apply_val]
  omega

/-- Tiles 0–24 and tiles 25–49 are the 50 tiles. -/
theorem sum_halves {M : Type*} [AddCommMonoid M] (g : ℕ → M) :
    (∑ c : Fin 25, g c.val) + (∑ c : Fin 25, g (25 + c.val)) = ∑ t : Fin 50, g t.val := by
  have h := Fin.sum_univ_add (a := 25) (b := 25) (fun t : Fin (25 + 25) => g t.val)
  simpa only [Fin.coe_castAdd, Fin.coe_natAdd] using h.symm

end Cert.MarginLoss

end
-- ==== Proof.KExcl.lean ====
/-
  Lanes 0 and 128 of the kernel's output array add up to the denominator without the label's class.  Tile `t`'s
  weight block is rows `2000 t … 2000 t + 1999` of the weights, its input block the whole array of normalised rows,
  its label block the whole lane-broadcast label array, and its base word the word of class `2000 t`; so tile `t`'s
  sum is the sum of `term` over those 2000 classes, a core's 25 tiles give 50000 classes, the two cores all 100000.
-/
import proofs.«408675_j41463614276215_3_alg».proof.Proof.Spec
import proofs.«408675_j41463614276215_3_alg».proof.Proof.SumLaws
import proofs.«408675_j41463614276215_3_alg».proof.Proof.KHost
import proofs.«408675_j41463614276215_3_alg».proof.Proof.KValue

set_option maxRecDepth 16384

noncomputable section

open scoped BigOperators

namespace Cert.MarginLoss.KExcl

open Cert.KernelIdeal Cert.KernelIdeal.Gen
open Idealize.ShloMosaic Idealize.ShloMosaic.TcCoe Idealize.SL.Sem Idealize.ShloMosaic.ValueIdx
open Cert.MarginLoss.KValue

variable (m : (ℓ : Loc nD τ sig) → Buf (Elt Ideal) ℓ)

/-- Point `t` of the grid is tile `t`: core · 25 + step. -/
theorem grid_tile : ∀ t : Fin cfg0.N, ((grid0.coords t) 0).val * 25 + ((grid0.coords t) 1).val = t.val :=
  (by decide +kernel : ∀ t : Fin grid0.N, ((grid0.coords t) 0).val * 25 + ((grid0.coords t) 1).val = t.val)

/-- The input windows' block indices over the grid. -/
theorem in_index : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0)

/-- Every point's input block is the whole array of normalised rows. -/
theorem xblk_eq (c : Dev nD) (t : Fin cfg0.N) :
    (xblk m c t : S1024x512.Idx → EReal) = KHost.xnOf m c := by
  funext j
  rw [← KHost.V_xn m c j]
  obtain ⟨a0, a1, -⟩ := in_index t
  show (iblk m c 0 t : S1024x512.Idx → EReal) j = _
  unfold iblk
  rw [View.read_apply]
  show (V m c main_v8 : S1024x512.Idx → EReal) _ = (V m c main_v8 : S1024x512.Idx → EReal) _
  congr 1
  funext a
  apply Fin.ext
  match a with
  | ⟨0, _⟩ => show win0_0.index t (0 : Fin 2) * 1024 + 1 * (j 0).val = (j 0).val; rw [a0]; omega
  | ⟨1, _⟩ => show win0_0.index t (1 : Fin 2) * 512 + 1 * (j 1).val = (j 1).val; rw [a1]; omega

/-- Tile `t`'s weight block is rows `2000 t + r` of the weights. -/
theorem wblk_eq (c : Dev nD) (t : Fin cfg0.N) (r : Fin 2000) (d : Fin 512) :
    (wblk m c t : S2000x512.Idx → EReal) (ix2 r d)
      = (m ((c.tc : Thread nD τ).loc main_arg2) : S100000x512.Idx → EReal)
          (ix2 (⟨t.val * 2000 + r.val, by have := lt_of_lt_of_eq t.isLt (show cfg0.N = 50 from N_0); omega⟩ : Fin 100000) d) := by
  rw [← V_main_arg2 m c]
  obtain ⟨-, -, a0, a1, -⟩ := in_index t
  show (iblk m c 1 t : S2000x512.Idx → EReal) (ix2 r d) = _
  unfold iblk
  rw [View.read_apply]
  show (V m c main_arg2 : S100000x512.Idx → EReal) _ = (V m c main_arg2 : S100000x512.Idx → EReal) _
  congr 1
  funext a
  apply Fin.ext
  match a with
  | ⟨0, _⟩ => show win0_1.index t (0 : Fin 2) * 2000 + 1 * r.val = t.val * 2000 + r.val; rw [a0]; omega
  | ⟨1, _⟩ => show win0_1.index t (1 : Fin 2) * 512 + 1 * d.val = d.val; rw [a1]; omega

/-- Every point's label block holds row `i`'s label in lane 0. -/
theorem lblk_eq (c : Dev nD) (t : Fin cfg0.N) (i : Fin 1024) :
    (lblk m c t : S1024x128.Idx → BitVec 32) (ix2 i (0 : Fin 128)) = m ((c.tc : Thread nD τ).loc main_arg1) (ix1 i) := by
  rw [← KHost.V_labels m c i (0 : Fin 128)]
  obtain ⟨-, -, -, -, a0, a1⟩ := in_index t
  show (iblk m c 2 t : S1024x128.Idx → BitVec 32) (ix2 i (0 : Fin 128)) = _
  unfold iblk
  rw [View.read_apply]
  show (V m c main_v10 : S1024x128.Idx → BitVec 32) _ = (V m c main_v10 : S1024x128.Idx → BitVec 32) _
  congr 1
  funext a
  apply Fin.ext
  match a with
  | ⟨0, _⟩ => show win0_2.index t (0 : Fin 2) * 1024 + 1 * i.val = i.val; rw [a0]; omega
  | ⟨1, _⟩ => show win0_2.index t (1 : Fin 2) * 128 + 1 * (0 : Fin 128).val = (0 : Fin 128).val; rw [a1]; rfl

/-- Tile `t`'s sum is the sum of `term` over classes `2000 t … 2000 t + 1999`. -/
theorem tileSum_eq (c : Dev nD) (t : Fin cfg0.N) (i : Fin 1024) :
    tileSum m c t i = ∑ r : Fin 2000, term (KHost.xnOf m c) (m ((c.tc : Thread nD τ).loc main_arg2))
      (m ((c.tc : Thread nD τ).loc main_arg1)) i
      (⟨t.val * 2000 + r.val, by have := lt_of_lt_of_eq t.isLt (show cfg0.N = 50 from N_0); omega⟩ : Fin 100000) := by
  have hN : t.val < 50 := lt_of_lt_of_eq t.isLt (show cfg0.N = 50 from N_0)
  unfold tileSum
  rw [blkSum_eq_sum]
  refine Finset.sum_congr rfl fun r _ => ?_
  have hb : tileBase ((grid0.coords t) 0).val ((grid0.coords t) 1).val = BitVec.ofNat 32 (t.val * 2000) := by
    rw [tileBase_eq, grid_tile t]
  rw [hb, xblk_eq m c t]
  exact blkTerm_eq_term (KHost.xnOf m c) (m ((c.tc : Thread nD τ).loc main_arg2)) (m ((c.tc : Thread nD τ).loc main_arg1))
    (wblk m c t) (lblk m c t) ⟨t.val, hN⟩ (fun r d => wblk_eq m c t r d) (fun i => lblk_eq m c t i) i r

/-- Lane `q` of row `i` of the output is the restarting sum at the last tile of core `q / 128`. -/
theorem outFn_lane (c : Dev nD) (i : Fin 1024) (q : Fin 256) :
    outFn m c (ix2 i q) = restartSum (tileN m c i) (25 * (q.val / 128) + 24) := rfl

/-- Lanes 0 and 128 of row `i` of the output array add up to the denominator without the label's class. -/
theorem excl_eq (c : Dev nD) (i : Fin 1024) :
    outFn m c (ix2 i (0 : Fin 256)) + outFn m c (ix2 i (128 : Fin 256))
      = exclSum (KHost.xnOf m c) (m ((c.tc : Thread nD τ).loc main_arg2)) (m ((c.tc : Thread nD τ).loc main_arg1)) i := by
  have n0 : 25 * ((0 : Fin 256).val / 128) + 24 = 25 * 0 + 24 := rfl
  have n1 : 25 * ((128 : Fin 256).val / 128) + 24 = 25 * 1 + 24 := rfl
  rw [outFn_lane m c i 0, outFn_lane m c i 128, n0, n1]
  rw [restartSum_eq _ 0 24 (by decide), restartSum_eq _ 1 24 (by decide), Finset.sum_range, Finset.sum_range]
  simp only [Nat.mul_zero, Nat.zero_add, Nat.mul_one]
  rw [sum_halves (fun n => tileN m c i n)]
  unfold exclSum
  rw [← sum_tiles (fun col => term (KHost.xnOf m c) (m ((c.tc : Thread nD τ).loc main_arg2)) (m ((c.tc : Thread nD τ).loc main_arg1)) i col)]
  refine Finset.sum_congr rfl fun t _ => ?_
  have ht : t.val < cfg0.N := by rw [show cfg0.N = 50 from N_0]; exact t.isLt
  rw [tileN_of_lt m c i t.val ht, tileSum_eq m c ⟨t.val, ht⟩ i]

end Cert.MarginLoss.KExcl

end
-- ==== Proof.lean ====
/-
  A margin-softmax loss computed two ways.  With `xn` the rows of `x` divided by their norms, the reference forms all
  1024 × 100000 logits `xn · Wᵀ`, takes the label's logit `t` out of them and sums `exp (30 · logit)` over every other
  class; the kernel streams `W` through a 2 × 25 grid of 2000-class tiles, each tile five runs of 400 classes, adding
  the masked `exp (30 · logit)` row sums into a scratch that restarts at each core's first tile and is written to
  that core's half of the output at its last, while the label's logit is taken on the side as the gathered weight
  row against `xn`.  Both end with the mean over the batch of `n − log (exp n + e)`, `n = 30 (t − 0.4)`, negated.

  At the ideal values sums of extended reals re-associate and commute, so the tiled sum is the whole sum
  (`KExcl.excl_eq`); the label's logit is the same dot product on both sides once the label is a class number
  (`0 ≤ label < 100000`, the added precondition: outside it the reference's take-along-axis answers NaN);
  the rest of both programs is one function of those two vectors (`lossTail`).
-/
import proofs.«408675_j41463614276215_3_alg».proof.Defs
import proofs.«408675_j41463614276215_3_alg».proof.Proof.Gen.Kernel
import proofs.«408675_j41463614276215_3_alg».proof.Proof.Gen.Kernel.Skeleton
import proofs.«408675_j41463614276215_3_alg».proof.Proof.Gen.Kernel.Launch
import proofs.«408675_j41463614276215_3_alg».proof.Proof.Gen.Kernel.Points
import proofs.«408675_j41463614276215_3_alg».proof.Proof.Gen.Kernel.Frame
import proofs.«408675_j41463614276215_3_alg».proof.Proof.Gen.KernelIdeal
import proofs.«408675_j41463614276215_3_alg».proof.Proof.Gen.KernelIdeal.Skeleton
import proofs.«408675_j41463614276215_3_alg».proof.Proof.Gen.KernelIdeal.Launch
import proofs.«408675_j41463614276215_3_alg».proof.Proof.Gen.KernelIdeal.Points
import proofs.«408675_j41463614276215_3_alg».proof.Proof.Gen.KernelIdeal.Frame
import proofs.«408675_j41463614276215_3_alg».proof.Proof.Gen.ReferenceIdeal
import proofs.«408675_j41463614276215_3_alg».proof.Proof.Gen.Pre_finite_inputs
import proofs.«408675_j41463614276215_3_alg».proof.Proof.Gen.ReferenceIdeal.Run
import proofs.«408675_j41463614276215_3_alg».proof.Proof.Gen.ReferenceIdeal.Read
import proofs.«408675_j41463614276215_3_alg».proof.Proof.Spec
import proofs.«408675_j41463614276215_3_alg».proof.Proof.PreDecode
import proofs.«408675_j41463614276215_3_alg».proof.Proof.RefSide
import proofs.«408675_j41463614276215_3_alg».proof.Proof.KHost
import proofs.«408675_j41463614276215_3_alg».proof.Proof.KValue
import proofs.«408675_j41463614276215_3_alg».proof.Proof.KExcl
import Idealize.ShloMosaic.Adequacy
import Idealize.ShloMosaic.Init

noncomputable section

namespace Cert.Proof

open Idealize.ShloMosaic Idealize.ShloMosaic.TcCoe Idealize.SL.Sem Idealize.ShloMosaic.ValueIdx
open Cert.MarginLoss

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs (a straight line of host operations) and keeps its arguments. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at `lossTail` of the label's logit and of the denominator without the label's class. -/
theorem algebraic : Cert.algebraic_KernelIdeal_ReferenceIdeal := by
  intro m ρ m' ρ' hpre hagree
  have hlab : ∀ (c : Dev Cert.KernelIdeal.nD) (i : Fin 1024),
      0 ≤ (m ((c.tc : Thread Cert.KernelIdeal.nD Cert.KernelIdeal.τ).loc Cert.KernelIdeal.main_arg1) (ix1 i)).toInt ∧ (m ((c.tc : Thread Cert.KernelIdeal.nD Cert.KernelIdeal.τ).loc Cert.KernelIdeal.main_arg1) (ix1 i)).toInt < 100000 :=
    fun c i => Cert.MarginLoss.Pre.labels_in_range _ _ _ (hpre c) i
  refine ⟨fun c => lossTail Cert.KernelIdeal.Gen.reducesTo_S1024_S_d0 Cert.KernelIdeal.Gen.h_S_ Cert.KernelIdeal.Gen.bcast_S_S1024
      (targetVec (KHost.xnOf m c) (m ((c.tc : Thread Cert.KernelIdeal.nD Cert.KernelIdeal.τ).loc Cert.KernelIdeal.main_arg2)) (m ((c.tc : Thread Cert.KernelIdeal.nD Cert.KernelIdeal.τ).loc Cert.KernelIdeal.main_arg1)))
      (exclVec (KHost.xnOf m c) (m ((c.tc : Thread Cert.KernelIdeal.nD Cert.KernelIdeal.τ).loc Cert.KernelIdeal.main_arg2)) (m ((c.tc : Thread Cert.KernelIdeal.nD Cert.KernelIdeal.τ).loc Cert.KernelIdeal.main_arg1))), ?_, ?_⟩
  · refine (θ_run Cert.KernelIdeal.defs _ _).mono (fun r h c => ⟨?_, ?_, ?_, ?_⟩) (Cert.KernelIdeal.Gen.run_main m ρ)
    · refine ((h c).2 Cert.KernelIdeal.main_v36 (Pipeline.mem_restRefs_of Cert.KernelIdeal.main_v36 (by decide) (by decide))).trans ?_
      rw [KHost.result_eq m c (hlab c) (KValue.outFn m c) (KValue.final_out m c)]
      exact congrArg (lossTail Cert.KernelIdeal.Gen.reducesTo_S1024_S_d0 Cert.KernelIdeal.Gen.h_S_ Cert.KernelIdeal.Gen.bcast_S_S1024 _)
        (funext fun j => KExcl.excl_eq m c ⟨(j 0).val, (j 0).isLt⟩)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).1 1).trans (((Cert.KernelIdeal.Gen.dats m 0 c).arrAt_in 1 rfl _).trans
        ((Cert.KernelIdeal.Gen.A_eq m c 1).trans (Cert.KernelIdeal.Gen.V_main_arg2 m c)))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq, (hagree c).1, (hagree c).2.1, (hagree c).2.2]
    exact Ref.result_eq _ _ _ (hlab c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
